-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xCE6E6B28#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S50257x768 : Shape := ⟨2, ![50257, 768]⟩
abbrev S50257 : Shape := ⟨1, ![50257]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S50257x768 : S_.BroadcastsInDim S50257x768 (![] : Fin 0 → Fin S50257x768.rank)
  reducesTo_S50257x768_S_d0_1 : S50257x768.ReducesTo [0, 1] S_
  bcast_S_S50257 : S_.BroadcastsInDim S50257 (![] : Fin 0 → Fin S50257.rank)
  reducesTo_S50257_S_d0 : S50257.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S2x2048x768 .f32) (main_arg1 : FVec F S50257x768 .f32) (main_arg2 : FVec F S50257 .f32) (main_arg3 : FVec F S768x768 .f32) (main_arg4 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S50257x768 .f32 := Host.absf main_arg1
  let main_cst_0 : FVec F S_ .f32 := constant S_ .f32 0x7F800000#32
  let main_v5 : FVec F S50257x768 .f32 := broadcastInDim S50257x768 ![] bcast_S_S50257x768 main_cst_0
  let main_v6 : IVec S50257x768 1 := cmpf .olt main_v4 main_v5
  let main_c_1 : IVec S_ 1 := constantI S_ 1 1#1
  let main_v7 : IVec S_ 1 := (fun x v => Host.reduce IntOp.andi x v reducesTo_S50257x768_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S2x2048x768 : Shape := ⟨3, ![2, 2048, 768]⟩
abbrev S50257x768 : Shape := ⟨2, ![50257, 768]⟩
abbrev S50257 : Shape := ⟨1, ![50257]⟩
abbrev S768x768 : Shape := ⟨2, ![768, 768]⟩
abbrev S768 : Shape := ⟨1, ![768]⟩
abbrev S4096x768 : Shape := ⟨2, ![4096, 768]⟩
abbrev S_ : Shape := ⟨0, ![]⟩
abbrev S50688x768 : Shape := ⟨2, ![50688, 768]⟩
abbrev S50688 : Shape := ⟨1, ![50688]⟩
abbrev S1x50688 : Shape := ⟨2, ![1, 50688]⟩
abbrev S1x768 : Shape := ⟨2, ![1, 768]⟩
abbrev S1024x768 : Shape := ⟨2, ![1024, 768]⟩
abbrev S1536x768 : Shape := ⟨2, ![1536, 768]⟩
abbrev S1x1536 : Shape := ⟨2, ![1, 1536]⟩
abbrev S1024x1 : Shape := ⟨2, ![1024, 1]⟩
abbrev S768x1536 : Shape := ⟨2, ![768, 1536]⟩
abbrev S1024x1536 : Shape := ⟨2, ![1024, 1536]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S2x2048x768, .f32⟩
  | .hbm, ⟨1, _⟩ => ⟨S50257x768, .f32⟩
  | .hbm, ⟨2, _⟩ => ⟨S50257, .f32⟩
  | .hbm, ⟨3, _⟩ => ⟨S768x768, .f32⟩
  | .hbm, ⟨4, _⟩ => ⟨S768, .f32⟩
  | .hbm, ⟨5, _⟩ => ⟨S4096x768, .f32⟩
  | .hbm, ⟨6, _⟩ => ⟨S4096x768, .bf16⟩
  | .hbm, ⟨7, _⟩ => ⟨S_, .i32⟩
  | .hbm, ⟨8, _⟩ => ⟨S_, .f32⟩
  | .hbm, ⟨9, _⟩ => ⟨S50688x768, .f32⟩
  | .hbm, ⟨10, _⟩ => ⟨S50688x768, .bf16⟩
  | .hbm, ⟨11, _⟩ => ⟨S_, .f32⟩
  | .hbm, ⟨12, _⟩ => ⟨S_, .f32⟩
  | .hbm, ⟨13, _⟩ => ⟨S50688, .f32⟩
  | .hbm, ⟨14, _⟩ => ⟨S1x50688, .f32⟩
  | .hbm, ⟨15, _⟩ => ⟨S768x768, .bf16⟩
  | .hbm, ⟨16, _⟩ => ⟨S1x768, .f32⟩
  | .hbm, ⟨17, _⟩ => ⟨S4096x768, .f32⟩
  | .hbm, ⟨18, _⟩ => ⟨S2x2048x768, .f32⟩
  | .local _ .vmem, ⟨0, _⟩ => ⟨S1024x768, .bf16⟩
  | .local _ .vmem, ⟨1, _⟩ => ⟨S1024x768, .bf16⟩
  | .local _ .vmem, ⟨2, _⟩ => ⟨S1536x768, .bf16⟩
  | .local _ .vmem, ⟨3, _⟩ => ⟨S1536x768, .bf16⟩
  | .local _ .vmem, ⟨4, _⟩ => ⟨S1x1536, .f32⟩
  | .local _ .vmem, ⟨5, _⟩ => ⟨S1x1536, .f32⟩
  | .local _ .vmem, ⟨6, _⟩ => ⟨S768x768, .bf16⟩
  | .local _ .vmem, ⟨7, _⟩ => ⟨S1x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x1, .f32⟩
  | .local _ .vmem, ⟨12, _⟩ => ⟨S1024x1, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 33], ![false, false]⟩

def k0_cond2 (i : grid0.Coords) : BitVec 1 :=
  let arg1 : BitVec 32 := BitVec.ofNat 32 (i 1).val
  let c32_i32 : BitVec 32 := 32#32
  let v50 : BitVec 1 := Scalar.cmpi .eq arg1 c32_i32
  let v51 : BitVec 32 := Scalar.extui v50
  let c0_i32_22 : BitVec 32 := 0#32
  let v52 : BitVec 1 := Scalar.cmpi .ne v51 c0_i32_22
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x2048x768_S4096x768 : S2x2048x768.ShapeCasts S4096x768
  bitsLt_bf16_f32 : FTy.bits .bf16 < FTy.bits .f32
  pads_S50257x768_S50688x768_04310_000 : S50257x768.Pads (![0, 0] : Fin 2 → Nat) ![431, 0] ![0, 0] S50688x768
  h_S_ : 0 < S_.numel
  pads_S50257_S50688_04310 : S50257.Pads (![0] : Fin 1 → Nat) ![431] ![0] S50688
  shapeCasts_S50688_S1x50688 : S50688.ShapeCasts S1x50688
  shapeCasts_S768_S1x768 : S768.ShapeCasts S1x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  transposes_S1536x768_p1_0_S768x1536 : S1536x768.Transposes [1, 0] S768x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  iota_S1024x1536_d1_w32 : S1024x1536.Iotas .tc 32 [1]
  reduces_S1024x1536_S1024 : S1024x1536.Reduces [1] S1024
  shapeCasts_S1024_S1024x1 : S1024.ShapeCasts S1024x1
  broadcasts_S1024x1_S1024x1536 : S1024x1.Broadcasts S1024x1536
  broadcasts_S1024x1_S1024x768 : S1024x1.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  transposes_S768x768_p1_0_S768x768 : S768x768.Transposes [1, 0] S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S4096x768_S2x2048x768 : S4096x768.ShapeCasts S2x2048x768
  dot_S1024x768_S768x1536_S1024x1536_1_0_0_1_n_n_wf : DotDims.WF S1024x768 S768x1536 S1024x1536 [1] [0] [0] [1] [] []
  dot_S1024x1536_S1536x768_S1024x768_1_0_0_1_n_n_wf : DotDims.WF S1024x1536 S1536x768 S1024x768 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .bf16 = 32 ∨ (Rect.block (s := S4096x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x768.size a ≤ S50688x768.size a
  hwx0_1 : ∀ i : grid0.Coords, EltTy.bits .bf16 = 32 ∨ (Rect.block (s := S50688x768) S1536x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x50688.size a
  hwx0_2 : ∀ i : grid0.Coords, EltTy.bits .f32 = 32 ∨ (Rect.block (s := S1x50688) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S4096x768.size a
  hwx0_5 : ∀ i : grid0.Coords, EltTy.bits .f32 = 32 ∨ (Rect.block (s := S4096x768) S1024x768.size (cc0_transform_5 i) (hinb0_5 i)).WholeWords (EltTy.packing .f32)

variable [Facts₀]

def dot_S1024x768_S768x1536_S1024x1536_1_0_0_1_n_n : DotDims S1024x768 S768x1536 S1024x1536 where
  lhsContracting := [1]
  rhsContracting := [0]
  lhsNonContracting := [0]
  rhsNonContracting := [1]
  lhsBatch := []
  rhsBatch := []
  wf := dot_S1024x768_S768x1536_S1024x1536_1_0_0_1_n_n_wf
def dot_S1024x1536_S1536x768_S1024x768_1_0_0_1_n_n : DotDims S1024x1536 S1536x768 S1024x768 where
  lhsContracting := [1]
  rhsContracting := [0]
  lhsNonContracting := [0]
  rhsNonContracting := [1]
  lhsBatch := []
  rhsBatch := []
  wf := dot_S1024x1536_S1536x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1536x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x768 : Shape := ⟨3, ![2, 2048, 768]⟩
abbrev S50257x768 : Shape := ⟨2, ![50257, 768]⟩
abbrev S50257 : Shape := ⟨1, ![50257]⟩
abbrev S768x768 : Shape := ⟨2, ![768, 768]⟩
abbrev S768 : Shape := ⟨1, ![768]⟩
abbrev S2x2048x50257 : Shape := ⟨3, ![2, 2048, 50257]⟩
abbrev S1x1x50257 : Shape := ⟨3, ![1, 1, 50257]⟩
abbrev S_ : Shape := ⟨0, ![]⟩
abbrev S2x2048 : Shape := ⟨2, ![2, 2048]⟩
abbrev S2x2048x1 : Shape := ⟨3, ![2, 2048, 1]⟩
abbrev S1x1x768 : Shape := ⟨3, ![1, 1, 768]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S50257x768, .f32⟩
  | .hbm, ⟨2, _⟩ => ⟨S50257, .f32⟩
  | .hbm, ⟨3, _⟩ => ⟨S768x768, .f32⟩
  | .hbm, ⟨4, _⟩ => ⟨S768, .f32⟩
  | .hbm, ⟨5, _⟩ => ⟨S2x2048x50257, .f32⟩
  | .hbm, ⟨6, _⟩ => ⟨S1x1x50257, .f32⟩
  | .hbm, ⟨7, _⟩ => ⟨S2x2048x50257, .f32⟩
  | .hbm, ⟨8, _⟩ => ⟨S2x2048x50257, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048x1, .f32⟩
  | .hbm, ⟨15, _⟩ => ⟨S2x2048x50257, .f32⟩
  | .hbm, ⟨16, _⟩ => ⟨S2x2048x50257, .f32⟩
  | .hbm, ⟨17, _⟩ => ⟨S2x2048x50257, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S2x2048x50257, .f32⟩
  | .hbm, ⟨22, _⟩ => ⟨S2x2048x50257, .f32⟩
  | .hbm, ⟨23, _⟩ => ⟨S2x2048x768, .f32⟩
  | .hbm, ⟨24, _⟩ => ⟨S2x2048x768, .f32⟩
  | .hbm, ⟨25, _⟩ => ⟨S1x1x768, .f32⟩
  | .hbm, ⟨26, _⟩ => ⟨S2x2048x768, .f32⟩
  | .hbm, ⟨27, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S50257_S1x1x50257_2 : S50257.BroadcastsInDim S1x1x50257 (![2] : Fin 1 → Fin S1x1x50257.rank)
  bcast_S1x1x50257_S2x2048x50257_0_1_2 : S1x1x50257.BroadcastsInDim S2x2048x50257 (![0, 1, 2] : Fin 3 → Fin S2x2048x50257.rank)
  reducesTo_S2x2048x50257_S2x2048_d2 : S2x2048x50257.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x50257_0_1_2 : S2x2048x1.BroadcastsInDim S2x2048x50257 (![0, 1, 2] : Fin 3 → Fin S2x2048x50257.rank)
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  dot_S2x2048x768_S50257x768_S2x2048x50257_2_1_01_0_n_n_wf : DotDims.WF S2x2048x768 S50257x768 S2x2048x50257 [2] [1] [0, 1] [0] [] []
  dot_S2x2048x50257_S50257x768_S2x2048x768_2_0_01_1_n_n_wf : DotDims.WF S2x2048x50257 S50257x768 S2x2048x768 [2] [0] [0, 1] [1] [] []
  dot_S2x2048x768_S768x768_S2x2048x768_2_1_01_0_n_n_wf : DotDims.WF S2x2048x768 S768x768 S2x2048x768 [2] [1] [0, 1] [0] [] []

variable [Facts₀]

def dot_S2x2048x768_S50257x768_S2x2048x50257_2_1_01_0_n_n : DotDims S2x2048x768 S50257x768 S2x2048x50257 where
  lhsContracting := [2]
  rhsContracting := [1]
  lhsNonContracting := [0, 1]
  rhsNonContracting := [0]
  lhsBatch := []
  rhsBatch := []
  wf := dot_S2x2048x768_S50257x768_S2x2048x50257_2_1_01_0_n_n_wf
def dot_S2x2048x50257_S50257x768_S2x2048x768_2_0_01_1_n_n : DotDims S2x2048x50257 S50257x768 S2x2048x768 where
  lhsContracting := [2]
  rhsContracting := [0]
  lhsNonContracting := [0, 1]
  rhsNonContracting := [1]
  lhsBatch := []
  rhsBatch := []
  wf := dot_S2x2048x50257_S50257x768_S2x2048x768_2_0_01_1_n_n_wf
def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf

class Facts : Prop extends Facts₀ where

variable [Facts]
-- ==== Proof.Finite.lean ====
/-
  From the precondition to real arguments: every entry of every argument array has absolute value below +∞, so it is
  neither infinity, so it is (the coercion of) a real number.
-/
import proofs.«410612_j10015863734716_3_alg».proof.Defs
import proofs.«410612_j10015863734716_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- An array of extended reals all of whose entries are real. -/
def IsReal {S : Shape} (a : S.Idx → EReal) : Prop := ∃ f : S.Idx → ℝ, a = fun i => ((f i : ℝ) : EReal)

/-- The rank-0 shape has one index. -/
instance : Subsingleton S_.Idx := ⟨fun _ _ => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (-x) compares below +∞ is a real: -∞ has absolute value +∞. -/
theorem real_of_cmp (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- An array every entry of which has absolute value below +∞ is an array of reals. -/
theorem isReal_of_all {S : Shape} (a : S.Idx → EReal)
    (h : ∀ i, Ideal.cmp .olt (max (a i) (-(a i))) (Ideal.ofBits .f32 0x7F800000#32) = 1#1) : IsReal a :=
  ⟨fun i => (a i).toReal, funext fun i => by
    obtain ⟨r, hr⟩ := real_of_cmp _ (h i)
    show a i = (((a i).toReal : ℝ) : EReal)
    rw [hr, EReal.toReal_coe]⟩

/-- The precondition's predicate, all ones, makes each of the five arguments real. -/
theorem real_of_fn (a0 : S2x2048x768.Idx → EReal) (a1 : S50257x768.Idx → EReal) (a2 : S50257.Idx → EReal)
    (a3 : S768x768.Idx → EReal) (a4 : S768.Idx → EReal)
    (h : Cert.Pre_finite_inputs.fn (F := Ideal) a0 a1 a2 a3 a4 = fun _ => 1#1) :
    IsReal a0 ∧ IsReal a1 ∧ IsReal a2 ∧ IsReal a3 ∧ IsReal a4 := by
  have h0 := congrFun h ValueIdx.ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨isReal_of_all a0 (fun i => Host.reduce_andi_all _ _ _ _ _ e0 i),
    isReal_of_all a1 (fun i => Host.reduce_andi_all _ _ _ _ _ e1 i),
    isReal_of_all a2 (fun i => Host.reduce_andi_all _ _ _ _ _ e2 i),
    isReal_of_all a3 (fun i => Host.reduce_andi_all _ _ _ _ _ e3 i),
    isReal_of_all a4 (fun i => Host.reduce_andi_all _ _ _ _ _ e4 i)⟩

end Cert.Finite

end
-- ==== Proof.LibSoftmaxFold.lean ====
/-
  The online softmax over column tiles, on the extended reals.

  A row of real logits `x v` (v < N) is scanned tile by tile. The scan carries a running maximum `m`, a running
  denominator `l` and, for every output column `d`, a running numerator `a d`; a tile multiplies the old sums by
  `exp (m - m')` and adds the tile's own terms `exp (x v - m')`, where `m'` is the new maximum; a column past
  the row's end carries the logit -∞, whose term is `exp (-∞) = 0`.

  The invariant (`Inv`): the maximum is SOME real `M` (that it is the maximum is never used), the denominator is
  `∑ v < n, exp (x v - M)` and the numerators are `∑ v < n, exp (x v - M) * w d v`. The quotient numerator /
  denominator does not depend on `M` (`exp (-M)` cancels): it is the softmax-weighted average `avg`. The same
  average is what a two-pass softmax computes: `∑ v, (exp (x v - M) / ∑ u, exp (x u - M)) * w v`, for any real `M`.
-/
import Idealize.ShloMosaic.PureOps.Ideal

noncomputable section

open scoped BigOperators

namespace SoftmaxFold

open Idealize.ShloMosaic

/-- The shifted denominator over the first `n` columns. -/
def S (x : ℕ → ℝ) (M : ℝ) (n : ℕ) : ℝ := ∑ v ∈ Finset.range n, Real.exp (x v - M)

/-- The shifted numerator over the first `n` columns, against the weights `w`. -/
def A (x w : ℕ → ℝ) (M : ℝ) (n : ℕ) : ℝ := ∑ v ∈ Finset.range n, Real.exp (x v - M) * w v

/-- The softmax-weighted average of `w` over the first `n` columns. -/
def avg (x w : ℕ → ℝ) (n : ℕ) : ℝ :=
  (∑ v ∈ Finset.range n, Real.exp (x v) * w v) / (∑ v ∈ Finset.range n, Real.exp (x v))

/-- What the scan holds after the first `n` columns: a real maximum, and the two sums shifted by it. -/
def Inv {D : Type} (x : ℕ → ℝ) (w : D → ℕ → ℝ) (n : ℕ) (m l : EReal) (a : D → EReal) : Prop :=
  ∃ M : ℝ, m = (M : EReal) ∧ l = ((S x M n : ℝ) : EReal) ∧ ∀ d, a d = ((A x (w d) M n : ℝ) : EReal)

/-- A finite sum of real numbers, coerced, is the sum of the coercions. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over at least one column the shifted denominator is positive. -/
theorem S_pos (x : ℕ → ℝ) (M : ℝ) {n : ℕ} (hn : 0 < n) : 0 < S x M n :=
  Finset.sum_pos (fun _ _ => Real.exp_pos _) (Finset.nonempty_range_iff.mpr hn.ne')

/-- The factor exp (-M) cancels between the shifted numerator and the shifted denominator. -/
theorem A_div_S (x w : ℕ → ℝ) (M : ℝ) (n : ℕ) : A x w M n / S x M n = avg x w n := by
  have hA : A x w M n = (∑ v ∈ Finset.range n, Real.exp (x v) * w v) * Real.exp (-M) := by
    unfold A
    rw [Finset.sum_mul]
    refine Finset.sum_congr rfl (fun v _ => ?_)
    rw [sub_eq_add_neg, Real.exp_add]; ring
  have hS : S x M n = (∑ v ∈ Finset.range n, Real.exp (x v)) * Real.exp (-M) := by
    unfold S
    rw [Finset.sum_mul]
    refine Finset.sum_congr rfl (fun v _ => ?_)
    rw [sub_eq_add_neg, Real.exp_add]
  rw [hA, hS, avg, mul_div_mul_right _ _ (Real.exp_pos _).ne']

/-- Moving the shift from M to M' multiplies a term by exp (M - M'). -/
theorem exp_shift (t M M' : ℝ) : Real.exp (M - M') * Real.exp (t - M) = Real.exp (t - M') := by
  rw [← Real.exp_add]; congr 1; ring

/-- The denominator at a later column, under a new shift: the old denominator rescaled plus the new columns' terms. -/
theorem S_step (x : ℕ → ℝ) (M M' : ℝ) {off e : ℕ} (h : off ≤ e) :
    S x M' e = Real.exp (M - M') * S x M off + ∑ v ∈ Finset.Ico off e, Real.exp (x v - M') := by
  unfold S
  rw [← Finset.sum_range_add_sum_Ico _ h, Finset.mul_sum]
  congr 1
  exact Finset.sum_congr rfl (fun v _ => (exp_shift _ _ _).symm)

/-- The numerator at a later column, under a new shift. -/
theorem A_step (x w : ℕ → ℝ) (M M' : ℝ) {off e : ℕ} (h : off ≤ e) :
    A x w M' e = Real.exp (M - M') * A x w M off + ∑ v ∈ Finset.Ico off e, Real.exp (x v - M') * w v := by
  unfold A
  rw [← Finset.sum_range_add_sum_Ico _ h, Finset.mul_sum]
  congr 1
  refine Finset.sum_congr rfl (fun v _ => ?_)
  rw [← mul_assoc, exp_shift]

/-- A tile of T columns from column off, its columns past N contributing 0, sums the columns from off to the
    tile's end cut at N. -/
theorem sum_tile (f : ℕ → ℝ) (off T N : ℕ) :
    ∑ k ∈ Finset.range T, (if off + k < N then f (off + k) else 0)
      = ∑ v ∈ Finset.Ico off (min (off + T) N), f v := by
  rw [Finset.sum_Ico_eq_sum_range, ← Finset.sum_filter]
  refine Finset.sum_congr ?_ (fun _ _ => rfl)
  ext k
  simp only [Finset.mem_filter, Finset.mem_range]
  omega

/-- The exponential of a difference of two reals. -/
theorem exp_coe_sub (a b : ℝ) : Ideal.exp ((a : EReal) - (b : EReal)) = ((Real.exp (a - b) : ℝ) : EReal) := by
  rw [← EReal.coe_sub, Ideal.exp_coe]

/-- One masked column's term: a real exponential inside the row, 0 past its end. -/
theorem tile_term {T : ℕ} (x : ℕ → ℝ) (N off : ℕ) (z : Fin T → EReal)
    (hz : ∀ c : Fin T, z c = if off + c.val < N then ((x (off + c.val) : ℝ) : EReal) else ⊥) (M' : ℝ) (c : Fin T) :
    Ideal.exp (z c - (M' : EReal))
      = (((if off + c.val < N then Real.exp (x (off + c.val) - M') else 0 : ℝ)) : EReal) := by
  rw [hz c]
  split_ifs with hc
  · exact exp_coe_sub _ _
  · rw [EReal.bot_sub, Ideal.exp_bot, EReal.coe_zero]

/-- The tile's denominator terms sum to a real sum over the tile's columns inside the row. -/
theorem tile_sum_exp {T : ℕ} (x : ℕ → ℝ) (N off : ℕ) (z : Fin T → EReal)
    (hz : ∀ c : Fin T, z c = if off + c.val < N then ((x (off + c.val) : ℝ) : EReal) else ⊥) (M' : ℝ) :
    ∑ c : Fin T, Ideal.exp (z c - (M' : EReal))
      = ((∑ v ∈ Finset.Ico off (min (off + T) N), Real.exp (x v - M') : ℝ) : EReal) := by
  rw [Finset.sum_congr rfl (fun c _ => tile_term x N off z hz M' c), ← coe_sum',
    Fin.sum_univ_eq_sum_range (fun k => if off + k < N then Real.exp (x (off + k) - M') else 0) T,
    sum_tile (fun v => Real.exp (x v - M'))]

/-- The tile's numerator terms, against masked weights, likewise. -/
theorem tile_sum_exp_mul {T : ℕ} (x w' : ℕ → ℝ) (N off : ℕ) (z wz : Fin T → EReal)
    (hz : ∀ c : Fin T, z c = if off + c.val < N then ((x (off + c.val) : ℝ) : EReal) else ⊥)
    (hw : ∀ c : Fin T, wz c = if off + c.val < N then ((w' (off + c.val) : ℝ) : EReal) else 0) (M' : ℝ) :
    ∑ c : Fin T, Ideal.exp (z c - (M' : EReal)) * wz c
      = ((∑ v ∈ Finset.Ico off (min (off + T) N), Real.exp (x v - M') * w' v : ℝ) : EReal) := by
  have hterm : ∀ c : Fin T, Ideal.exp (z c - (M' : EReal)) * wz c
      = (((if off + c.val < N then Real.exp (x (off + c.val) - M') * w' (off + c.val) else 0 : ℝ)) : EReal) := by
    intro c
    rw [tile_term x N off z hz M' c, hw c]
    split_ifs with hc
    · rw [EReal.coe_mul]
    · rw [EReal.coe_zero, mul_zero]
  rw [Finset.sum_congr rfl (fun c _ => hterm c), ← coe_sum',
    Fin.sum_univ_eq_sum_range (fun k => if off + k < N then Real.exp (x (off + k) - M') * w' (off + k) else 0) T,
    sum_tile (fun v => Real.exp (x v - M') * w' v)]

/-- The maximum of a masked tile is never ⊤. -/
theorem tile_max_ne_top {T : ℕ} (x : ℕ → ℝ) (N off : ℕ) (z : Fin T → EReal)
    (hz : ∀ c : Fin T, z c = if off + c.val < N then ((x (off + c.val) : ℝ) : EReal) else ⊥) :
    (Finset.univ : Finset (Fin T)).fold max ⊥ z < ⊤ := by
  rw [Finset.fold_max_lt]
  refine ⟨bot_lt_top, fun c _ => ?_⟩
  rw [hz c]
  split_ifs
  · exact EReal.coe_lt_top _
  · exact bot_lt_top

/-- One tile of `T` columns starting at column `off`, of a row of `N` columns: from the reset state (at `off = 0`)
    or from the invariant at `off`, the updated maximum, denominator and numerators satisfy the invariant at the
    tile's end (cut at `N`). Columns past `N` carry the logit `⊥` and the weight `0`. -/
theorem Inv.step {D : Type} {T : ℕ} (x : ℕ → ℝ) (w : D → ℕ → ℝ) (N off : ℕ) (z : Fin T → EReal) (ww : D → Fin T → EReal)
    (hz : ∀ c : Fin T, z c = if off + c.val < N then ((x (off + c.val) : ℝ) : EReal) else ⊥)
    (hw : ∀ d (c : Fin T), ww d c = if off + c.val < N then ((w d (off + c.val) : ℝ) : EReal) else 0)
    (m l : EReal) (a : D → EReal)
    (h : (m = ⊥ ∧ l = 0 ∧ (∀ d, a d = 0) ∧ off = 0 ∧ 0 < T ∧ 0 < N) ∨ (Inv x w off m l a ∧ off ≤ N)) :
    Inv x w (min (off + T) N) (max m ((Finset.univ : Finset (Fin T)).fold max ⊥ z))
      (Ideal.exp (m - max m ((Finset.univ : Finset (Fin T)).fold max ⊥ z)) * l
        + ∑ c : Fin T, Ideal.exp (z c - max m ((Finset.univ : Finset (Fin T)).fold max ⊥ z)))
      (fun d => Ideal.exp (m - max m ((Finset.univ : Finset (Fin T)).fold max ⊥ z)) * a d
        + ∑ c : Fin T, Ideal.exp (z c - max m ((Finset.univ : Finset (Fin T)).fold max ⊥ z)) * ww d c) := by
  have hrm_top : (Finset.univ : Finset (Fin T)).fold max ⊥ z < ⊤ := tile_max_ne_top x N off z hz
  generalize hrm : (Finset.univ : Finset (Fin T)).fold max ⊥ z = rm at hrm_top ⊢
  rcases h with ⟨hm, hl, ha, hoff, hT, hN⟩ | ⟨⟨M, hm, hl, ha⟩, hoffN⟩
  · -- from the reset state: the new maximum is the tile's, a real since column 0 is inside the row
    subst hoff hm
    have hz0 : ((x 0 : ℝ) : EReal) ≤ rm := by
      rw [← hrm, Finset.le_fold_max]
      refine Or.inr ⟨⟨0, hT⟩, Finset.mem_univ _, ?_⟩
      rw [hz ⟨0, hT⟩, if_pos (by simpa using hN)]
      exact le_of_eq (by simp)
    have hbot : rm ≠ ⊥ := ne_of_gt (lt_of_lt_of_le (EReal.bot_lt_coe _) hz0)
    have hmn : max ⊥ rm = ((rm.toReal : ℝ) : EReal) := by
      rw [max_eq_right bot_le, EReal.coe_toReal hrm_top.ne hbot]
    rw [hmn]
    refine ⟨rm.toReal, rfl, ?_, fun d => ?_⟩
    · rw [EReal.bot_sub, Ideal.exp_bot, hl, mul_zero, zero_add, tile_sum_exp x N 0 z hz, S, Finset.range_eq_Ico]
    · beta_reduce
      rw [EReal.bot_sub, Ideal.exp_bot, ha d, mul_zero, zero_add,
        tile_sum_exp_mul x (w d) N 0 z (ww d) hz (hw d), A, Finset.range_eq_Ico]
  · -- from the invariant: the new maximum is at least the old real one and below ⊤
    subst hm
    have hmn_top : max (M : EReal) rm < ⊤ := max_lt (EReal.coe_lt_top M) hrm_top
    have hmn_bot : max (M : EReal) rm ≠ ⊥ :=
      ne_of_gt (lt_of_lt_of_le (EReal.bot_lt_coe M) (le_max_left _ _))
    have hmn : max (M : EReal) rm = (((max (M : EReal) rm).toReal : ℝ) : EReal) :=
      (EReal.coe_toReal hmn_top.ne hmn_bot).symm
    generalize (max (M : EReal) rm).toReal = M' at hmn
    rw [hmn]
    have he : off ≤ min (off + T) N := le_min (Nat.le_add_right _ _) hoffN
    refine ⟨M', rfl, ?_, fun d => ?_⟩
    · rw [exp_coe_sub, hl, tile_sum_exp x N off z hz, ← EReal.coe_mul, ← EReal.coe_add, S_step x M M' he]
    · beta_reduce
      rw [exp_coe_sub, ha d, tile_sum_exp_mul x (w d) N off z (ww d) hz (hw d), ← EReal.coe_mul, ← EReal.coe_add,
        A_step x (w d) M M' he]

/-- After at least one column the quotient numerator / denominator is the softmax-weighted average. -/
theorem Inv.div_eq {D : Type} {x : ℕ → ℝ} {w : D → ℕ → ℝ} {n : ℕ} {m l : EReal} {a : D → EReal}
    (h : Inv x w n m l a) (hn : 0 < n) (d : D) : Ideal.div (a d) l = ((avg x (w d) n : ℝ) : EReal) := by
  obtain ⟨M, _, hl, ha⟩ := h
  rw [ha d, hl, Ideal.div_coe (S_pos x M hn).ne', ← EReal.coe_mul, ← A_div_S x (w d) M n, mul_one_div]

/-- A maximum over real entries, from `⊥`, of a nonempty row is a real. -/
theorem fold_max_real {N : ℕ} (hN : 0 < N) (x : Fin N → ℝ) :
    ∃ M : ℝ, (Finset.univ : Finset (Fin N)).fold max (⊥ : EReal) (fun v => ((x v : ℝ) : EReal)) = (M : EReal) := by
  have htop : (Finset.univ : Finset (Fin N)).fold max (⊥ : EReal) (fun v => ((x v : ℝ) : EReal)) < ⊤ := by
    rw [Finset.fold_max_lt]
    exact ⟨bot_lt_top, fun v _ => EReal.coe_lt_top _⟩
  have hge : ((x ⟨0, hN⟩ : ℝ) : EReal)
      ≤ (Finset.univ : Finset (Fin N)).fold max (⊥ : EReal) (fun v => ((x v : ℝ) : EReal)) := by
    rw [Finset.le_fold_max]
    exact Or.inr ⟨⟨0, hN⟩, Finset.mem_univ _, le_refl _⟩
  have hbot := ne_of_gt (lt_of_lt_of_le (EReal.bot_lt_coe _) hge)
  exact ⟨_, (EReal.coe_toReal htop.ne hbot).symm⟩

/-- The two-pass softmax against weights: for ANY real shift `M`, the normalized terms times the weights sum to the
    softmax-weighted average (`x'`, `w'` the row and the weights as functions on `Fin N`). -/
theorem twopass_eq {N : ℕ} (hN : 0 < N) (x w : ℕ → ℝ) (M : ℝ) :
    ∑ v : Fin N, Ideal.div (Ideal.exp (((x v.val : ℝ) : EReal) - (M : EReal)))
        (0 + ∑ u : Fin N, Ideal.exp (((x u.val : ℝ) : EReal) - (M : EReal))) * ((w v.val : ℝ) : EReal)
      = ((avg x w N : ℝ) : EReal) := by
  have hS : (0 : EReal) + ∑ u : Fin N, Ideal.exp (((x u.val : ℝ) : EReal) - (M : EReal))
      = ((S x M N : ℝ) : EReal) := by
    rw [zero_add, S, ← Fin.sum_univ_eq_sum_range (fun v => Real.exp (x v - M)) N, coe_sum']
    exact Finset.sum_congr rfl (fun u _ => exp_coe_sub _ _)
  have hpos := S_pos x M hN
  have hterm : ∀ v : Fin N,
      Ideal.div (Ideal.exp (((x v.val : ℝ) : EReal) - (M : EReal))) ((S x M N : ℝ) : EReal) * ((w v.val : ℝ) : EReal)
        = ((Real.exp (x v.val - M) * w v.val / S x M N : ℝ) : EReal) := by
    intro v
    rw [exp_coe_sub, Ideal.div_coe hpos.ne', ← EReal.coe_mul, ← EReal.coe_mul]
    congr 1; ring
  rw [hS, Finset.sum_congr rfl (fun v _ => hterm v), ← coe_sum',
    Fin.sum_univ_eq_sum_range (fun v => Real.exp (x v - M) * w v / S x M N) N, ← Finset.sum_div,
    ← A_div_S x w M N, A]

/-- A finite sum of real numbers, coerced, is the sum of the coercions. -/
theorem coe_sum {ι : Type} (s : Finset ι) (f : ι → ℝ) : ((∑ i ∈ s, f i : ℝ) : EReal) = ∑ i ∈ s, ((f i : ℝ) : EReal) := by
  exact coe_sum' s f

end SoftmaxFold

end
-- ==== Proof.Spec.lean ====
/-
  What both programs compute, over the reals, at one entry of the result.

  For a row `xr` of the input (768 features), the vocabulary embedding `Wv` (50257 rows of 768), its bias `bv`,
  the final linear layer `Wl` (768 by 768) and its bias `bl`:
    logit v   = (∑ k, xr k * Wv v k) + bv v                 the row's score against vocabulary row v
    hid d     = ∑ v, softmax(logit) v * Wv v d              the softmax-weighted average of column d of `Wv`
    out e     = (∑ d, hid d * Wl e d) + bl e                the linear layer
  The softmax-weighted average is `SoftmaxFold.avg`: (∑ v, exp (logit v) * Wv v d) / (∑ v, exp (logit v)).
  `G` is the whole result array [2, 2048, 768] as extended reals, entry (b, s, e) being `out e` of row (b, s).
-/
import proofs.«410612_j10015863734716_3_alg».proof.Proof.LibSoftmaxFold
import Idealize.ShloMosaic.Lib.ValueIdx

noncomputable section

open scoped BigOperators

namespace Cert.Spec

open Idealize.ShloMosaic Idealize.ShloMosaic.ValueIdx

/-- Score of the row against vocabulary row `v` (zero past the vocabulary's end, where it is never read). -/
def logit (xr : Fin 768 → ℝ) (Wv : Fin 50257 → Fin 768 → ℝ) (bv : Fin 50257 → ℝ) (v : ℕ) : ℝ :=
  if h : v < 50257 then (∑ k : Fin 768, xr k * Wv ⟨v, h⟩ k) + bv ⟨v, h⟩ else 0

/-- Column `d` of the vocabulary embedding, as a function of the vocabulary row's number. -/
def wcol (Wv : Fin 50257 → Fin 768 → ℝ) (d : Fin 768) (v : ℕ) : ℝ := if h : v < 50257 then Wv ⟨v, h⟩ d else 0

/-- The softmax-weighted average of column `d` of the embedding. -/
def hid (xr : Fin 768 → ℝ) (Wv : Fin 50257 → Fin 768 → ℝ) (bv : Fin 50257 → ℝ) (d : Fin 768) : ℝ :=
  SoftmaxFold.avg (logit xr Wv bv) (wcol Wv d) 50257

/-- The linear layer applied to the averages. -/
def out (xr : Fin 768 → ℝ) (Wv : Fin 50257 → Fin 768 → ℝ) (bv : Fin 50257 → ℝ) (Wl : Fin 768 → Fin 768 → ℝ)
    (bl : Fin 768 → ℝ) (e : Fin 768) : ℝ :=
  (∑ d : Fin 768, hid xr Wv bv d * Wl e d) + bl e

/-- The result array as a function of the (real) argument arrays. -/
def G (X : (⟨3, ![2, 2048, 768]⟩ : Shape).Idx → ℝ) (Wv : (⟨2, ![50257, 768]⟩ : Shape).Idx → ℝ)
    (bv : (⟨1, ![50257]⟩ : Shape).Idx → ℝ) (Wl : (⟨2, ![768, 768]⟩ : Shape).Idx → ℝ) (bl : (⟨1, ![768]⟩ : Shape).Idx → ℝ) :
    (⟨3, ![2, 2048, 768]⟩ : Shape).Idx → EReal :=
  fun i => ((out (fun k => X (ix3 (i 0) (i 1) k)) (fun v k => Wv (ix2 v k)) (fun v => bv (ix1 v))
    (fun e d => Wl (ix2 e d)) (fun e => bl (ix1 e)) (i 2) : ℝ) : EReal)

end Cert.Spec

end
-- ==== Proof.RefStages.lean ====
/-
  The reference program's result, stage by stage, at one entry (b, s, e) of the result array, for real arguments:
  the scores of row (b, s) against every vocabulary row, their maximum (a real: the row is not empty), the
  exponentials shifted by it, their sum, the normalized weights, the weighted average of each embedding column
  (the two-pass softmax: `SoftmaxFold.twopass_eq`), the linear layer. All of it is arithmetic on coerced reals, so
  the entry is the coercion of `Spec.out`.
-/
import proofs.«410612_j10015863734716_3_alg».proof.Defs
import proofs.«410612_j10015863734716_3_alg».proof.Proof.Gen.ReferenceIdeal.Run
import proofs.«410612_j10015863734716_3_alg».proof.Proof.Gen.ReferenceIdeal.Read
import proofs.«410612_j10015863734716_3_alg».proof.Proof.Spec

noncomputable section

open scoped BigOperators

namespace Cert.ReferenceIdeal.Stages

open Cert.ReferenceIdeal Cert.ReferenceIdeal.Gen Idealize.ShloMosaic Idealize.ShloMosaic.ValueIdx

/-! ### The stages' composed index functions at coordinates -/

private theorem lidx_v0 (b : Fin 2) (s : Fin 2048) (v : Fin 50257) (k : Fin 768) :
    Read.lidx_main_v0 (ix3 b s v) k = ix3 b s k :=
  funext fun a => Fin.ext (by match a with | ⟨0, _⟩ => rfl | ⟨1, _⟩ => rfl | ⟨2, _⟩ => rfl)

private theorem ridx_v0 (b : Fin 2) (s : Fin 2048) (v : Fin 50257) (k : Fin 768) :
    Read.ridx_main_v0 (ix3 b s v) k = ix2 v k :=
  funext fun a => Fin.ext (by match a with | ⟨0, _⟩ => rfl | ⟨1, _⟩ => rfl)

private theorem idx_v1v2 (b : Fin 2) (s : Fin 2048) (v : Fin 50257) :
    Read.idx_main_v1 (Read.idx_main_v2 (ix3 b s v)) = ix1 v :=
  funext fun a => Fin.ext (by match a with | ⟨0, _⟩ => rfl)

/-- The score of row (b, s) against vocabulary row v is a coerced real. -/
private theorem v3_at (X : S2x2048x768.Idx → ℝ) (Wv : S50257x768.Idx → ℝ) (bv : S50257.Idx → ℝ)
    (b : Fin 2) (s : Fin 2048) (v : Fin 50257) :
    Read.val_main_v3 (F := Ideal) (fun i => ((X i : ℝ) : EReal)) (fun i => ((Wv i : ℝ) : EReal))
        (fun i => ((bv i : ℝ) : EReal)) (ix3 b s v)
      = ((Spec.logit (fun k => X (ix3 b s k)) (fun v k => Wv (ix2 v k)) (fun v => bv (ix1 v)) v.val : ℝ) : EReal) := by
  rw [Read.val_main_v3_apply, Read.val_main_v0_apply, Read.val_main_v2_apply, Read.val_main_v1_apply, idx_v1v2,
    Ideal.addf_def, Spec.logit, dif_pos v.isLt, EReal.coe_add, SoftmaxFold.coe_sum]
  congr 1
  refine Finset.sum_congr rfl fun k _ => ?_
  rw [lidx_v0, ridx_v0, EReal.coe_mul]

/-! ### The row's maximum is a real -/

private theorem red_d2 : S2x2048x50257.Reduces [2] S2x2048 := by decide

private theorem lift_d2 (b : Fin 2) (s : Fin 2048) (k : Fin (S2x2048x50257.size 2)) :
    red_d2.lift (ix2 b s) k = ix3 b s (⟨k.val, k.isLt⟩ : Fin 50257) :=
  funext fun a => Fin.ext (by match a with | ⟨0, _⟩ => rfl | ⟨1, _⟩ => rfl | ⟨2, _⟩ => rfl)

/-- The running maximum of row (b, s), from -∞ over a nonempty row of reals, is some real. -/
private theorem v6_real (X : S2x2048x768.Idx → ℝ) (Wv : S50257x768.Idx → ℝ) (bv : S50257.Idx → ℝ)
    (b : Fin 2) (s : Fin 2048) :
    ∃ M : ℝ, Read.val_main_v6 (F := Ideal) (fun i => ((X i : ℝ) : EReal)) (fun i => ((Wv i : ℝ) : EReal))
        (fun i => ((bv i : ℝ) : EReal)) (ix2 b s) = (M : EReal) := by
  obtain ⟨M, hM⟩ := SoftmaxFold.fold_max_real (N := 50257) (by norm_num)
    (fun v => Spec.logit (fun k => X (ix3 b s k)) (fun v k => Wv (ix2 v k)) (fun v => bv (ix1 v)) v.val)
  refine ⟨M, ?_⟩
  have hbot : Ideal.ofBits .f32 0xFF800000#32 = (⊥ : EReal) := by simp [Ideal.ofBits, Ideal.ieee]
  have hf : (Read.val_main_v3 (F := Ideal) (fun i => ((X i : ℝ) : EReal)) (fun i => ((Wv i : ℝ) : EReal))
        (fun i => ((bv i : ℝ) : EReal)) ∘ red_d2.lift (ix2 b s))
      = fun v : Fin 50257 => ((Spec.logit (fun k => X (ix3 b s k)) (fun v k => Wv (ix2 v k)) (fun v => bv (ix1 v)) v.val : ℝ) : EReal) :=
    funext fun k => by rw [Function.comp_apply, lift_d2]; exact v3_at X Wv bv b s _
  rw [Read.val_main_v6_apply, Read.val_main_v5_apply, Read.val_main_cst_0_apply, Read.val_main_v4,
    Host.reduce_eq_fold_single FloatOps.maximumf _ _ reducesTo_S2x2048x50257_S2x2048_d2 red_d2 h_S_,
    Read.val_main_cst_apply, Ideal.ofBits_def, Ideal.maximumf_def, hbot, hf]
  exact (max_eq_right bot_le).trans hM

/-! ### The shifted exponentials, their sum, the normalized weights -/

private theorem idx_v7v8 (b : Fin 2) (s : Fin 2048) (v : Fin 50257) :
    Read.idx_main_v7 (Read.idx_main_v8 (ix3 b s v)) = ix2 b s :=
  funext fun a => Fin.ext (by match a with | ⟨0, _⟩ => rfl | ⟨1, _⟩ => rfl)

private theorem idx_v11 (b : Fin 2) (s : Fin 2048) (k : Fin 50257) :
    Read.idx_main_v11 (ix2 b s) k = ix3 b s k :=
  funext fun a => Fin.ext (by match a with | ⟨0, _⟩ => rfl | ⟨1, _⟩ => rfl | ⟨2, _⟩ => rfl)

private theorem idx_v12v13 (b : Fin 2) (s : Fin 2048) (v : Fin 50257) :
    Read.idx_main_v12 (Read.idx_main_v13 (ix3 b s v)) = ix2 b s :=
  funext fun a => Fin.ext (by match a with | ⟨0, _⟩ => rfl | ⟨1, _⟩ => rfl)

/-- The exponential of the score shifted by the row's maximum M. -/
private theorem v10_at (X : S2x2048x768.Idx → ℝ) (Wv : S50257x768.Idx → ℝ) (bv : S50257.Idx → ℝ)
    (b : Fin 2) (s : Fin 2048) (M : ℝ)
    (hM : Read.val_main_v6 (F := Ideal) (fun i => ((X i : ℝ) : EReal)) (fun i => ((Wv i : ℝ) : EReal))
        (fun i => ((bv i : ℝ) : EReal)) (ix2 b s) = (M : EReal)) (v : Fin 50257) :
    Read.val_main_v10 (F := Ideal) (fun i => ((X i : ℝ) : EReal)) (fun i => ((Wv i : ℝ) : EReal))
        (fun i => ((bv i : ℝ) : EReal)) (ix3 b s v)
      = Ideal.exp (((Spec.logit (fun k => X (ix3 b s k)) (fun v k => Wv (ix2 v k)) (fun v => bv (ix1 v)) v.val : ℝ) : EReal)
          - (M : EReal)) := by
  rw [Read.val_main_v10_apply, Read.val_main_v9_apply, v3_at, Read.val_main_v8_apply, Read.val_main_v7_apply, idx_v7v8, hM,
    Ideal.hostUnary_exp_def, Ideal.subf_def]

/-- The sum of the row's shifted exponentials, from the zero word. -/
private theorem v11_at (X : S2x2048x768.Idx → ℝ) (Wv : S50257x768.Idx → ℝ) (bv : S50257.Idx → ℝ)
    (b : Fin 2) (s : Fin 2048) (M : ℝ)
    (hM : Read.val_main_v6 (F := Ideal) (fun i => ((X i : ℝ) : EReal)) (fun i => ((Wv i : ℝ) : EReal))
        (fun i => ((bv i : ℝ) : EReal)) (ix2 b s) = (M : EReal)) :
    Read.val_main_v11 (F := Ideal) (fun i => ((X i : ℝ) : EReal)) (fun i => ((Wv i : ℝ) : EReal))
        (fun i => ((bv i : ℝ) : EReal)) (ix2 b s)
      = 0 + ∑ u : Fin 50257,
          Ideal.exp (((Spec.logit (fun k => X (ix3 b s k)) (fun v k => Wv (ix2 v k)) (fun v => bv (ix1 v)) u.val : ℝ) : EReal)
            - (M : EReal)) := by
  rw [Read.val_main_v11_apply, Read.val_main_cst_1_apply, Ideal.ofBits_def, Ideal.ofBits_zero_f32]
  refine congrArg (_ + ·) (Finset.sum_congr rfl fun k _ => ?_)
  rw [idx_v11, v10_at X Wv bv b s M hM]

/-- The normalized weight of vocabulary row v. -/
private theorem v14_at (X : S2x2048x768.Idx → ℝ) (Wv : S50257x768.Idx → ℝ) (bv : S50257.Idx → ℝ)
    (b : Fin 2) (s : Fin 2048) (M : ℝ)
    (hM : Read.val_main_v6 (F := Ideal) (fun i => ((X i : ℝ) : EReal)) (fun i => ((Wv i : ℝ) : EReal))
        (fun i => ((bv i : ℝ) : EReal)) (ix2 b s) = (M : EReal)) (v : Fin 50257) :
    Read.val_main_v14 (F := Ideal) (fun i => ((X i : ℝ) : EReal)) (fun i => ((Wv i : ℝ) : EReal))
        (fun i => ((bv i : ℝ) : EReal)) (ix3 b s v)
      = Ideal.div
          (Ideal.exp (((Spec.logit (fun k => X (ix3 b s k)) (fun v k => Wv (ix2 v k)) (fun v => bv (ix1 v)) v.val : ℝ) : EReal)
            - (M : EReal)))
          (0 + ∑ u : Fin 50257,
            Ideal.exp (((Spec.logit (fun k => X (ix3 b s k)) (fun v k => Wv (ix2 v k)) (fun v => bv (ix1 v)) u.val : ℝ) : EReal)
              - (M : EReal))) := by
  rw [Read.val_main_v14_apply, Read.val_main_v13_apply, Read.val_main_v12_apply, idx_v12v13, v11_at X Wv bv b s M hM,
    v10_at X Wv bv b s M hM, Ideal.hostDivf_def]

/-! ### The weighted average of an embedding column, and the linear layer -/

private theorem lidx_v15 (b : Fin 2) (s : Fin 2048) (d : Fin 768) (k : Fin 50257) :
    Read.lidx_main_v15 (ix3 b s d) k = ix3 b s k :=
  funext fun a => Fin.ext (by match a with | ⟨0, _⟩ => rfl | ⟨1, _⟩ => rfl | ⟨2, _⟩ => rfl)

private theorem ridx_v15 (b : Fin 2) (s : Fin 2048) (d : Fin 768) (k : Fin 50257) :
    Read.ridx_main_v15 (ix3 b s d) k = ix2 k d :=
  funext fun a => Fin.ext (by match a with | ⟨0, _⟩ => rfl | ⟨1, _⟩ => rfl)

private theorem lidx_v16 (b : Fin 2) (s : Fin 2048) (e : Fin 768) (k : Fin 768) :
    Read.lidx_main_v16 (ix3 b s e) k = ix3 b s k :=
  funext fun a => Fin.ext (by match a with | ⟨0, _⟩ => rfl | ⟨1, _⟩ => rfl | ⟨2, _⟩ => rfl)

private theorem ridx_v16 (b : Fin 2) (s : Fin 2048) (e : Fin 768) (k : Fin 768) :
    Read.ridx_main_v16 (ix3 b s e) k = ix2 e k :=
  funext fun a => Fin.ext (by match a with | ⟨0, _⟩ => rfl | ⟨1, _⟩ => rfl)

private theorem idx_v17v18 (b : Fin 2) (s : Fin 2048) (e : Fin 768) :
    Read.idx_main_v17 (Read.idx_main_v18 (ix3 b s e)) = ix1 e :=
  funext fun a => Fin.ext (by match a with | ⟨0, _⟩ => rfl)

/-- The two-pass softmax against column d of the embedding is the softmax-weighted average of that column. -/
private theorem v15_at (X : S2x2048x768.Idx → ℝ) (Wv : S50257x768.Idx → ℝ) (bv : S50257.Idx → ℝ)
    (b : Fin 2) (s : Fin 2048) (d : Fin 768) :
    Read.val_main_v15 (F := Ideal) (fun i => ((X i : ℝ) : EReal)) (fun i => ((Wv i : ℝ) : EReal))
        (fun i => ((bv i : ℝ) : EReal)) (ix3 b s d)
      = ((Spec.hid (fun k => X (ix3 b s k)) (fun v k => Wv (ix2 v k)) (fun v => bv (ix1 v)) d : ℝ) : EReal) := by
  obtain ⟨M, hM⟩ := v6_real X Wv bv b s
  rw [Read.val_main_v15_apply, Spec.hid, ← SoftmaxFold.twopass_eq (N := 50257) (by norm_num) _ _ M]
  refine Finset.sum_congr rfl fun v _ => ?_
  rw [lidx_v15, ridx_v15, v14_at X Wv bv b s M hM, Spec.wcol, dif_pos v.isLt]

/-- On real arguments the reference's last stage is the specification's array. -/
theorem ref_eq_G (X : S2x2048x768.Idx → ℝ) (Wv : S50257x768.Idx → ℝ) (bv : S50257.Idx → ℝ) (Wl : S768x768.Idx → ℝ)
    (bl : S768.Idx → ℝ) :
    Cert.ReferenceIdeal.Read.val_main_v19 (F := Ideal) (fun i => ((X i : ℝ) : EReal)) (fun i => ((Wv i : ℝ) : EReal))
        (fun i => ((bv i : ℝ) : EReal)) (fun i => ((Wl i : ℝ) : EReal)) (fun i => ((bl i : ℝ) : EReal))
      = Cert.Spec.G X Wv bv Wl bl := by
  funext i
  obtain ⟨b, s, e, rfl⟩ : ∃ b s e, i = ix3 b s e := ⟨i 0, i 1, i 2, eq_ix3 i⟩
  show _ = ((Spec.out (fun k => X (ix3 b s k)) (fun v k => Wv (ix2 v k)) (fun v => bv (ix1 v))
    (fun e d => Wl (ix2 e d)) (fun e => bl (ix1 e)) e : ℝ) : EReal)
  rw [Read.val_main_v19_apply, Read.val_main_v16_apply, Read.val_main_v18_apply, Read.val_main_v17_apply, idx_v17v18,
    Ideal.addf_def, Spec.out, EReal.coe_add, SoftmaxFold.coe_sum]
  refine congrArg₂ (fun x y : EReal => x + y) (Finset.sum_congr rfl fun d _ => ?_) rfl
  rw [lidx_v16, ridx_v16, v15_at, EReal.coe_mul]

end Cert.ReferenceIdeal.Stages

end
-- ==== Proof.KPieces.lean ====
/-
  What one grid point's body leaves in the three carried buffers and in the output block, as terms of the body's
  arithmetic: at a first tile (case A) the reset values are read back by the update, so the maximum, the denominator
  and the accumulator are the update applied to -∞, 0 and 0; at a later tile (cases B and C) they are the update applied
  to what the point before left; at the last tile (case C) the output block is the epilogue of the updated
  accumulator and denominator.
-/
import proofs.«410612_j10015863734716_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

theorem sB0 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x1) (k0_pay11 i x0 x1 x2 xs1) (k0_pay12 i x0 x1 x2 xs1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sB1 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay3 (k0_pay10 i x0 x1 x2 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sB2 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay13 i x0 x1 x2 xs1 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sC0 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x1) (k0_pay11 i x0 x1 x2 xs1) (k0_pay12 i x0 x1 x2 xs1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sC1 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay3 (k0_pay10 i x0 x1 x2 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sC2 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay13 i x0 x1 x2 xs1 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem oC5 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x768 .bf16) (x1 : Vec F S1536x768 .bf16) (x2 : Vec F S1x1536 .f32) (x3 : Vec F S768x768 .bf16) (x4 : Vec F S1x768 .f32) (xs0 : Vec F S1024x768 .f32) (xs1 : Vec F S1024x1 .f32) (xs2 : Vec F S1024x1 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay4 (k0_pay2 (k0_pay8 x1) (k0_pay11 i x0 x1 x2 xs1) (k0_pay12 i x0 x1 x2 xs1) xs0) (k0_pay1 (k0_pay13 i x0 x1 x2 xs1 xs2)) x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sA0 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x768 .bf16) (x1 : Vec F S1536x768 .bf16) (x2 : Vec F S1x1536 .f32) (x3 : Vec F S768x768 .bf16) (x4 : Vec F S1x768 .f32) :
    sout0_A_0 c i arg2 harg2 arg3 harg3 arg4 harg4 arg5 harg5 arg6 harg6 arg7 harg7 arg8 harg8 arg9 harg9 arg10 harg10 hc0 hc1 x0 x1 x2 x3 x4 = k0_pay2 (k0_pay8 x1) (k0_pay11 i x0 x1 x2 k0_pay5) (k0_pay12 i x0 x1 x2 k0_pay5) k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x768) hz, View.readCov_unit_zero (S := S1024x768) _ hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sA1 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x768 .bf16) (x1 : Vec F S1536x768 .bf16) (x2 : Vec F S1x1536 .f32) (x3 : Vec F S768x768 .bf16) (x4 : Vec F S1x768 .f32) :
    sout0_A_1 c i arg2 harg2 arg3 harg3 arg4 harg4 arg5 harg5 arg6 harg6 arg7 harg7 arg8 harg8 arg9 harg9 arg10 harg10 hc0 hc1 x0 x1 x2 x3 x4 = k0_pay3 (k0_pay10 i x0 x1 x2 k0_pay5) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

theorem sA2 (c : Dev nD) (i : grid0.Coords) (arg2 : Memref sig .tc .vmem S1024x768 .bf16) (harg2 : arg2.IsWhole) (arg3 : Memref sig .tc .vmem S1536x768 .bf16) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S1024x768 .f32) (harg7 : arg7.IsWhole) (arg8 : Memref sig .tc .vmem S1024x768 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x768 .bf16) (x1 : Vec F S1536x768 .bf16) (x2 : Vec F S1x1536 .f32) (x3 : Vec F S768x768 .bf16) (x4 : Vec F S1x768 .f32) :
    sout0_A_2 c i arg2 harg2 arg3 harg3 arg4 harg4 arg5 harg5 arg6 harg6 arg7 harg7 arg8 harg8 arg9 harg9 arg10 harg10 hc0 hc1 x0 x1 x2 x3 x4 = k0_pay1 (k0_pay13 i x0 x1 x2 k0_pay5 k0_pay6) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, View.ld_unit_zero (S := S1024x768) hz, View.ld_unit_zero (S := S1536x768) hz, View.ld_unit_zero (S := S1x1536) hz, View.ld_unit_zero (S := S1024x1) hz, View.ld_unit_zero (S := S768x768) hz, View.ld_unit_zero (S := S1x768) hz, View.readCov_unit_zero (S := S1024x768) _ hz, View.readCov_unit_zero (S := S1024x1) _ hz]

end Cert.KernelIdeal.Pieces

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KPayDot.lean ====
/-
  The kernel body's three matrix products, read at one entry, over the extended reals.

  The body holds a tile of 1536 vocabulary rows `x1` (1536 by 768), the row block `x0` (1024 by 768) and the
  tile's bias `x2` (1 by 1536). Its masked scores are, at row r and tile column c,
      (∑ k, x0 r k * x1 c k) + x2 0 c     where the column's number in the vocabulary, (tile number) * 1536 + c, is below 50257,
      -∞                                   past the vocabulary's end
  (the product against the TRANSPOSED tile: a contraction over the feature axis of both operands; the mask a signed
  compare of the 32-bit column number against 50257, which no admitted tile number overflows).
-/
import proofs.«410612_j10015863734716_3_alg».proof.Proof.Gen.KernelIdeal.Skeleton
import proofs.«410612_j10015863734716_3_alg».proof.Proof.LibPlainDot
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-- A column broadcast along the rows: an `[a, 1]` array broadcast to `[a, b]` reads, at `(p, c)`, the column's entry of
    row `p`. -/
theorem columnBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Each of the body's three products contracts the left operand's columns with the right operand's rows, nothing batched. -/
theorem plain9 : PlainDot.IsPlain dot_S1024x768_S768x1536_S1024x1536_1_0_0_1_n_n := ⟨rfl, rfl, rfl, rfl, rfl, rfl⟩
theorem plain2 : PlainDot.IsPlain dot_S1024x1536_S1536x768_S1024x768_1_0_0_1_n_n := ⟨rfl, rfl, rfl, rfl, rfl, rfl⟩
theorem plain4 : PlainDot.IsPlain dot_S1024x768_S768x768_S1024x768_1_0_0_1_n_n := ⟨rfl, rfl, rfl, rfl, rfl, rfl⟩

/-- The mask word at (r, c): set exactly when the column's number in the vocabulary, (tile number) * 1536 + c, is below
    50257. The tile number is below 33 and c below 1536, so the 32-bit product and sum do not wrap and stay below 2^31,
    where the signed compare of words is the compare of their values. -/
theorem mask_apply (i : grid0.Coords) (r : Fin 1024) (c : Fin 1536) :
    cmpi .slt (addi (broadcast S1024x1536 (Scalar.muli (BitVec.ofNat 32 (i 1).val) 1536#32))
        (iota .tc S1024x1536 32 [1] iota_S1024x1536_d1_w32)) (broadcast S1024x1536 50257#32) (ix2 r c) = 1#1
      ↔ (i 1).val * 1536 + c.val < 50257 := by
  have hi : (i 1).val < 33 := (i 1).isLt
  have hc : c.val < 1536 := c.isLt
  show IntOp.cmpi .slt (BitVec.ofNat 32 (i 1).val * 1536#32 + iota .tc S1024x1536 32 [1] iota_S1024x1536_d1_w32 (ix2 r c)) 50257#32 = 1#1 ↔ _
  rw [iota_single_apply]
  have hv : (BitVec.ofNat 32 (i 1).val * 1536#32 + BitVec.ofNat 32 ((ix2 r c : S1024x1536.Idx) 1).val).toNat = (i 1).val * 1536 + c.val := by
    show (BitVec.ofNat 32 (i 1).val * 1536#32 + BitVec.ofNat 32 c.val).toNat = _
    simp only [BitVec.toNat_add, BitVec.toNat_mul, BitVec.toNat_ofNat]
    omega
  rw [StableHlo.Predicate.slt_iff_toNat (by rw [hv]; omega) (by decide), hv]
  rfl

/-- The masked scores of a tile at (r, c). `i 1` is the tile's number (below 33). -/
theorem pay9_apply (i : grid0.Coords) (x0 : S1024x768.Idx → EReal) (x1 : S1536x768.Idx → EReal) (x2 : S1x1536.Idx → EReal)
    (r : Fin 1024) (c : Fin 1536) :
    k0_pay9 (F := Ideal) i x0 x1 x2 (ix2 r c)
      = if (i 1).val * 1536 + c.val < 50257 then (∑ k : Fin 768, x0 (ix2 r k) * x1 (ix2 c k)) + x2 (ix2 0 c) else ⊥ := by
  unfold k0_pay9 k0_pay8
  rw [select_apply]
  by_cases h : (i 1).val * 1536 + c.val < 50257
  · -- inside the vocabulary: the product against the transposed tile, plus the bias row
    rw [if_pos h, (mask_apply i r c).mpr h, select_one, addf_apply, shapeCast_self, shapeCast_self, shapeCast_self,
      broadcastTo_1b_ab_apply]
    refine congrArg (· + _) ?_
    refine (plain9.matmul_zero_apply none _ _ r c).trans ?_
    refine Finset.sum_congr rfl fun k _ => ?_
    rw [transpose_ix2_apply]
  · -- past the vocabulary's end: the named constant, -∞ over the extended reals
    rw [if_neg h, eq_zero_of_ne_one (fun hh => h ((mask_apply i r c).mp hh)), select_zero, broadcast_apply]
    exact IdealRules.named_const.ideal_named_scalar _ _ _ _ rfl

/-- The rescaled accumulator plus the tile's weighted rows, at (r, d): `v26` the rescaling column, `v29` the tile's
    exponentials, `v6` the tile's vocabulary rows, `v40` the accumulator before. -/
theorem pay2_apply (v6 : S1536x768.Idx → EReal) (v26 : S1024x1.Idx → EReal) (v29 : S1024x1536.Idx → EReal)
    (v40 : S1024x768.Idx → EReal) (r : Fin 1024) (d : Fin 768) :
    k0_pay2 (F := Ideal) v6 v26 v29 v40 (ix2 r d)
      = v26 (ix2 r 0) * v40 (ix2 r d) + ∑ c : Fin 1536, v29 (ix2 r c) * v6 (ix2 c d) := by
  unfold k0_pay2
  rw [shapeCast_self, addf_apply, mulf_apply, columnBroadcast_apply]
  refine congrArg _ ?_
  exact plain2.matmul_zero_apply none _ _ r d

/-- The epilogue at (r, e): the accumulator `v53` divided by the denominator column `v54`, times the TRANSPOSED linear
    layer `v58`, plus the bias row `v62`. -/
theorem pay4_apply (v53 : S1024x768.Idx → EReal) (v54 : S1024x1.Idx → EReal) (v58 : S768x768.Idx → EReal)
    (v62 : S1x768.Idx → EReal) (r : Fin 1024) (e : Fin 768) :
    k0_pay4 (F := Ideal) v53 v54 v58 v62 (ix2 r e)
      = (∑ d : Fin 768, Ideal.div (v53 (ix2 r d)) (v54 (ix2 r 0)) * v58 (ix2 e d)) + v62 (ix2 0 e) := by
  unfold k0_pay4
  rw [addf_apply, shapeCast_self, shapeCast_self, broadcastTo_1b_ab_apply]
  refine congrArg (· + _) ?_
  refine (plain4.matmul_zero_apply none _ _ r e).trans ?_
  refine Finset.sum_congr rfl fun d _ => ?_
  rw [truncf_apply, divf_apply, columnBroadcast_apply, transpose_ix2_apply]

end Cert.KernelIdeal.Pay

end
-- ==== Proof.KPayRow.lean ====
/-
  The kernel body's row operations, read at one entry, over the extended reals: the running maximum, the rescaling
  factor, the tile's exponentials and the running denominator of the online softmax, each as a function of the
  tile's masked scores (`k0_pay9`), the maximum before (`mp`) and the denominator before (`lp`); and the three
  reset values (-∞ for the maximum, 0 for the denominator and for the accumulator).
-/
import proofs.«410612_j10015863734716_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The index a reduction over the lane axis of a [1024, 1536] array inserts: over row r, at lane c, it is (r, c). -/
theorem lift_row (h : S1024x1536.Reduces [1] S1024) (r : Fin 1024) (c : Fin 1536) :
    h.lift (ix1 r) c = ix2 r c := by
  funext a
  match a with
  | ⟨0, _⟩ => exact Fin.ext rfl
  | ⟨1, _⟩ => exact Fin.ext rfl

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The maximum over the lanes of row r, from -∞: the fold of max over the row's 1536 entries. -/
theorem rowMax_apply (src : FVec Ideal S1024x1536 .f32) (h : S1024x1536.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1536)).fold max ⊥ (fun c => src (ix2 r c)) := by
  refine (Ideal.multiReduction_maximumf_single src _ h hφ hacc (ix1 r)).trans ?_
  have hb : FloatOps.ofBits (F := Ideal) .f32 0xFF800000#32 = (⊥ : EReal) := by
    show Ideal.ofBits .f32 0xFF800000#32 = ⊥
    simp [Ideal.ofBits, Ideal.ieee]
  have hf : (src ∘ h.lift (ix1 r)) = fun c : Fin 1536 => src (ix2 r c) := by
    funext c
    exact congrArg src (lift_row h r c)
  rw [hb, hf]
  rfl

/-- The sum over the lanes of row r: the sum of the row's 1536 entries. -/
theorem rowSum_apply (src : FVec Ideal S1024x1536 .f32) (h : S1024x1536.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r)
      = ∑ c : Fin 1536, src (ix2 r c) := by
  refine (Ideal.multiReduction_add_single src _ h hφ hacc (ix1 r)).trans ?_
  exact Finset.sum_congr rfl fun c _ => congrArg src (lift_row h r c)

/-- The new maximum of row r: the old one against the tile's row maximum (a fold of `max` from -∞). -/
theorem pay10_apply (i : grid0.Coords) (x0 : S1024x768.Idx → EReal) (x1 : S1536x768.Idx → EReal) (x2 : S1x1536.Idx → EReal)
    (mp : S1024x1.Idx → EReal) (r : Fin 1024) :
    k0_pay10 (F := Ideal) i x0 x1 x2 mp (ix2 r 0)
      = max (mp (ix2 r 0)) ((Finset.univ : Finset (Fin 1536)).fold max ⊥ (fun c => k0_pay9 (F := Ideal) i x0 x1 x2 (ix2 r c))) := by
  unfold k0_pay10
  rw [maximumf_apply, shapeCast_a_a1_apply]
  exact congrArg (max (mp (ix2 r 0))) (rowMax_apply _ _ _ _ r)

/-- The rescaling factor of row r: exp (old maximum - new maximum). -/
theorem pay11_apply (i : grid0.Coords) (x0 : S1024x768.Idx → EReal) (x1 : S1536x768.Idx → EReal) (x2 : S1x1536.Idx → EReal)
    (mp : S1024x1.Idx → EReal) (r : Fin 1024) :
    k0_pay11 (F := Ideal) i x0 x1 x2 mp (ix2 r 0)
      = Ideal.exp (mp (ix2 r 0) - k0_pay10 (F := Ideal) i x0 x1 x2 mp (ix2 r 0)) := by
  unfold k0_pay11
  rfl

/-- The tile's exponentials at (r, c): exp (score - new maximum). -/
theorem pay12_apply (i : grid0.Coords) (x0 : S1024x768.Idx → EReal) (x1 : S1536x768.Idx → EReal) (x2 : S1x1536.Idx → EReal)
    (mp : S1024x1.Idx → EReal) (r : Fin 1024) (c : Fin 1536) :
    k0_pay12 (F := Ideal) i x0 x1 x2 mp (ix2 r c)
      = Ideal.exp (k0_pay9 (F := Ideal) i x0 x1 x2 (ix2 r c) - k0_pay10 (F := Ideal) i x0 x1 x2 mp (ix2 r 0)) := by
  unfold k0_pay12
  show Ideal.exp (k0_pay9 (F := Ideal) i x0 x1 x2 (ix2 r c)
      - broadcastTo S1024x1536 (k0_pay10 (F := Ideal) i x0 x1 x2 mp) broadcasts_S1024x1_S1024x1536 (ix2 r c)) = _
  rw [broadcastTo_a1_ab_apply]

/-- The new denominator of row r: the old one rescaled, plus the tile's exponentials summed. -/
theorem pay13_apply (i : grid0.Coords) (x0 : S1024x768.Idx → EReal) (x1 : S1536x768.Idx → EReal) (x2 : S1x1536.Idx → EReal)
    (mp lp : S1024x1.Idx → EReal) (r : Fin 1024) :
    k0_pay13 (F := Ideal) i x0 x1 x2 mp lp (ix2 r 0)
      = k0_pay11 (F := Ideal) i x0 x1 x2 mp (ix2 r 0) * lp (ix2 r 0)
        + ∑ c : Fin 1536, k0_pay12 (F := Ideal) i x0 x1 x2 mp (ix2 r c) := by
  unfold k0_pay13
  rw [addf_apply, mulf_apply, shapeCast_a_a1_apply]
  exact congrArg (k0_pay11 (F := Ideal) i x0 x1 x2 mp (ix2 r 0) * lp (ix2 r 0) + ·) (rowSum_apply _ _ _ _ r)

/-- The stores' last casts change nothing. -/
theorem pay1_eq (v : S1024x1.Idx → EReal) : k0_pay1 (F := Ideal) v = v := by
  unfold k0_pay1
  exact shapeCast_self v _
theorem pay3_eq (v : S1024x1.Idx → EReal) : k0_pay3 (F := Ideal) v = v := by
  unfold k0_pay3
  exact shapeCast_self v _
theorem pay8_eq (v : S1536x768.Idx → EReal) : k0_pay8 (F := Ideal) v = v := by
  unfold k0_pay8
  exact shapeCast_self v _

/-- The reset values. -/
theorem pay5_apply (j : S1024x1.Idx) : k0_pay5 (F := Ideal) j = ⊥ := by
  unfold k0_pay5
  rw [shapeCast_self]
  show Ideal.ofBits .f32 0xFF800000#32 = ⊥
  simp [Ideal.ofBits, Ideal.ieee]
theorem pay6_apply (j : S1024x1.Idx) : k0_pay6 (F := Ideal) j = 0 := by
  unfold k0_pay6
  rw [shapeCast_self]
  exact Ideal.ofBits_zero_f32
theorem pay7_apply (j : S1024x768.Idx) : k0_pay7 (F := Ideal) j = 0 := by
  unfold k0_pay7
  rw [shapeCast_self]
  exact Ideal.ofBits_zero_f32

end Cert.KernelIdeal.Pay

end
-- ==== Proof.KBlocks.lean ====
/-
  What the kernel's input blocks hold at grid point t, in terms of the argument arrays, over the extended reals.

  The grid is 4 row blocks by 33 vocabulary tiles; point t is row block t / 33, tile t % 33. Before the kernel, @main
  flattens x to [4096, 768], pads the vocabulary embedding and its bias with 431 zero rows (to 33 * 1536 = 50688) and
  changes formats, which over the extended reals changes nothing. So at point t
    the row block's entry (r, k) is x at flat row (t / 33) * 1024 + r,
    the tile's entry (c, k) is the embedding's row (t % 33) * 1536 + c where that is below 50257, and 0 past it,
    the tile's bias entry c likewise,
    the linear layer's weights and bias are read whole.
-/
import proofs.«410612_j10015863734716_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The five input blocks at point t, at their literal shapes. -/
abbrev xblk (c : Dev nD) (t : Fin cfg0.N) : S1024x768.Idx → EReal := iblk m c 0 t
abbrev wblk (c : Dev nD) (t : Fin cfg0.N) : S1536x768.Idx → EReal := iblk m c 1 t
abbrev bblk (c : Dev nD) (t : Fin cfg0.N) : S1x1536.Idx → EReal := iblk m c 2 t
abbrev lblk (c : Dev nD) (t : Fin cfg0.N) : S768x768.Idx → EReal := iblk m c 3 t
abbrev cblk (c : Dev nD) (t : Fin cfg0.N) : S1x768.Idx → EReal := iblk m c 4 t

/-- The five argument arrays on core c, at their literal shapes. -/
abbrev argX (c : Dev nD) : S2x2048x768.Idx → EReal := m ((c : Thread nD τ).loc main_arg0)
abbrev argWv (c : Dev nD) : S50257x768.Idx → EReal := m ((c : Thread nD τ).loc main_arg1)
abbrev argBv (c : Dev nD) : S50257.Idx → EReal := m ((c : Thread nD τ).loc main_arg2)
abbrev argWl (c : Dev nD) : S768x768.Idx → EReal := m ((c : Thread nD τ).loc main_arg3)
abbrev argBl (c : Dev nD) : S768.Idx → EReal := m ((c : Thread nD τ).loc main_arg4)

/-- What @main's operations before the kernel leave in each of the kernel's five operand arrays: x flattened and
    narrowed; -/
theorem V_v1 (c : Dev nD) : V m c main_v1
    = (truncf (F := Ideal) .bf16 (shapeCast S4096x768 (argX m c) shapeCasts_S2x2048x768_S4096x768) bitsLt_bf16_f32
        : S4096x768.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- the linear layer's weights narrowed; -/
theorem V_v6 (c : Dev nD) : V m c main_v6
    = (truncf (F := Ideal) .bf16 (argWl m c) bitsLt_bf16_f32 : S768x768.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- its bias as one row; -/
theorem V_v7 (c : Dev nD) : V m c main_v7
    = (shapeCast S1x768 (argBl m c) shapeCasts_S768_S1x768 : S1x768.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- the embedding padded with 431 rows of the converted integer zero, and narrowed; -/
theorem V_v3 (c : Dev nD) : V m c main_v3
    = (truncf (F := Ideal) .bf16 (pad S50688x768 ![0, 0] ![431, 0] ![0, 0] (argWv m c)
        (sitofp (F := Ideal) .f32 (constantI S_ 32 0#32)) pads_S50257x768_S50688x768_04310_000 h_S_) bitsLt_bf16_f32
        : S50688x768.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- the vocabulary bias padded with 431 zeros, as one row. -/
theorem V_v5 (c : Dev nD) : V m c main_v5
    = (shapeCast S1x50688 (pad S50688 ![0] ![431] ![0] (argBv m c)
        (constant (F := Ideal) S_ .f32 0x00000000#32) pads_S50257_S50688_04310 h_S_) shapeCasts_S50688_S1x50688
        : S1x50688.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The windows' block indices at point t, decided over the 132 points. -/
theorem idx_facts : ∀ t : Fin cfg0.N,
    win0_0.index t (0 : Fin 2) = t.val / 33 ∧ win0_0.index t (1 : Fin 2) = 0
    ∧ win0_1.index t (0 : Fin 2) = t.val % 33 ∧ win0_1.index t (1 : Fin 2) = 0
    ∧ win0_2.index t (0 : Fin 2) = 0 ∧ win0_2.index t (1 : Fin 2) = t.val % 33
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The integer zero converted is the real zero. -/
theorem padW_zero : sitofp (F := Ideal) .f32 (constantI S_ 32 0#32) (Shape.Idx.first h_S_) = (0 : EReal) := by
  show (((0#32 : BitVec 32).toInt : ℝ) : EReal) = 0
  simp

/-- Point t's coordinates: row block t / 33, tile t % 33. -/
theorem coords0 (t : Fin cfg0.N) : (grid0.coords t 0).val = t.val / 33 := by
  exact (by decide +kernel : ∀ t : Fin grid0.N, (grid0.coords t 0).val = t.val / 33) t
theorem coords1 (t : Fin cfg0.N) : (grid0.coords t 1).val = t.val % 33 := by
  exact (by decide +kernel : ∀ t : Fin grid0.N, (grid0.coords t 1).val = t.val % 33) t

/-- The row block: entry (r, k) is x at the flat row (t / 33) * 1024 + r, that is at (b, s) with b * 2048 + s that row. -/
theorem xblk_apply (c : Dev nD) (t : Fin cfg0.N) (r : Fin 1024) (k : Fin 768) (b : Fin 2) (s : Fin 2048)
    (h : b.val * 2048 + s.val = t.val / 33 * 1024 + r.val) :
    xblk m c t (ix2 r k) = argX m c (ix3 b s k) := by
  obtain ⟨e0, e1, -⟩ := idx_facts t
  show iblk m c 0 t (ix2 r k) = _
  unfold iblk
  rw [View.read_apply]
  show V m c main_v1 (((cfg0.win 0).blk t).view.emb (ix2 r k)) = _
  refine (congrFun (V_v1 m c) _).trans ?_
  refine shapeCast_apply _ _ _ _ ?_
  rw [Shape.rowMajor_val_three, Shape.rowMajor_val_two]
  show (b.val * 2048 + s.val) * 768 + k.val
    = (win0_0.index t (0 : Fin 2) * 1024 + 1 * r.val) * 768 + (win0_0.index t (1 : Fin 2) * 768 + 1 * k.val)
  rw [e0, e1]
  omega

/-- The vocabulary tile: entry (cc, k) is the embedding's row (t % 33) * 1536 + cc, or 0 in the padding. -/
theorem wblk_apply (c : Dev nD) (t : Fin cfg0.N) (cc : Fin 1536) (k : Fin 768) :
    wblk m c t (ix2 cc k)
      = if h : t.val % 33 * 1536 + cc.val < 50257 then argWv m c (ix2 ⟨t.val % 33 * 1536 + cc.val, h⟩ k) else (0 : EReal) := by
  obtain ⟨-, -, e0, e1, -⟩ := idx_facts t
  show iblk m c 1 t (ix2 cc k) = _
  unfold iblk
  rw [View.read_apply]
  show V m c main_v3 (((cfg0.win 1).blk t).view.emb (ix2 cc k)) = _
  refine (congrFun (V_v3 m c) _).trans ?_
  show pad S50688x768 ![0, 0] ![431, 0] ![0, 0] (argWv m c) (sitofp (F := Ideal) .f32 (constantI S_ 32 0#32))
    pads_S50257x768_S50688x768_04310_000 h_S_ (((cfg0.win 1).blk t).view.emb (ix2 cc k)) = _
  have j0 : ((((cfg0.win 1).blk t).view.emb (ix2 cc k)) (0 : Fin 2)).val = t.val % 33 * 1536 + cc.val := by
    show win0_1.index t (0 : Fin 2) * 1536 + 1 * cc.val = _
    rw [e0]; omega
  have j1 : ((((cfg0.win 1).blk t).view.emb (ix2 cc k)) (1 : Fin 2)).val = k.val := by
    show win0_1.index t (1 : Fin 2) * 768 + 1 * k.val = _
    rw [e1]; omega
  by_cases hlt : t.val % 33 * 1536 + cc.val < 50257
  · rw [dif_pos hlt]
    refine pad_apply_of_inside _ _ _ _ _ _ _ _ (ix2 ⟨_, hlt⟩ k) (fun a => ?_)
    match a with
    | ⟨0, _⟩ => exact j0.trans (by show _ = 0 + (t.val % 33 * 1536 + cc.val) * (0 + 1); omega)
    | ⟨1, _⟩ => exact j1.trans (by show _ = 0 + k.val * (0 + 1); omega)
  · rw [dif_neg hlt]
    refine (pad_apply_of_not_inside _ _ _ _ _ _ _ _ (0 : Fin 2) ?_).trans (padW_zero)
    rintro ⟨-, -, h3⟩
    change (((((cfg0.win 1).blk t).view.emb (ix2 cc k)) (0 : Fin 2)).val - 0) / (0 + 1) < 50257 at h3
    rw [j0] at h3
    omega

/-- The tile's bias: entry cc is the bias at (t % 33) * 1536 + cc, or 0 in the padding. -/
theorem bblk_apply (c : Dev nD) (t : Fin cfg0.N) (cc : Fin 1536) :
    bblk m c t (ix2 0 cc)
      = if h : t.val % 33 * 1536 + cc.val < 50257 then argBv m c (ix1 ⟨t.val % 33 * 1536 + cc.val, h⟩) else (0 : EReal) := by
  obtain ⟨-, -, -, -, e0, e1, -⟩ := idx_facts t
  show iblk m c 2 t (ix2 0 cc) = _
  unfold iblk
  rw [View.read_apply]
  show V m c main_v5 (((cfg0.win 2).blk t).view.emb (ix2 0 cc)) = _
  refine (congrFun (V_v5 m c) _).trans ?_
  have ht : t.val % 33 < 33 := Nat.mod_lt _ (by decide)
  have hb : t.val % 33 * 1536 + cc.val < 50688 := by have := cc.isLt; omega
  refine (shapeCast_apply _ _ _ (ix1 ⟨t.val % 33 * 1536 + cc.val, hb⟩) ?_).trans ?_
  · rw [Shape.rowMajor_val_one, Shape.rowMajor_val_two]
    show t.val % 33 * 1536 + cc.val
      = (win0_2.index t (0 : Fin 2) * 1 + 1 * 0) * 50688 + (win0_2.index t (1 : Fin 2) * 1536 + 1 * cc.val)
    rw [e0, e1]; omega
  · by_cases hlt : t.val % 33 * 1536 + cc.val < 50257
    · rw [dif_pos hlt]
      refine pad_apply_of_inside _ _ _ _ _ _ _ _ (ix1 ⟨_, hlt⟩) (fun a => ?_)
      match a with
      | ⟨0, _⟩ => show t.val % 33 * 1536 + cc.val = 0 + (t.val % 33 * 1536 + cc.val) * (0 + 1); omega
    · rw [dif_neg hlt]
      refine (pad_apply_of_not_inside _ _ _ _ _ _ _ _ (0 : Fin 1) ?_).trans Ideal.ofBits_zero_f32
      rintro ⟨-, -, h3⟩
      change (t.val % 33 * 1536 + cc.val - 0) / (0 + 1) < 50257 at h3
      omega

/-- The linear layer's weights and bias, whole. -/
theorem lblk_apply (c : Dev nD) (t : Fin cfg0.N) (e k : Fin 768) :
    lblk m c t (ix2 e k) = argWl m c (ix2 e k) := by
  obtain ⟨-, -, -, -, -, -, e0, e1, -⟩ := idx_facts t
  show iblk m c 3 t (ix2 e k) = _
  unfold iblk
  rw [View.read_apply]
  show V m c main_v6 (((cfg0.win 3).blk t).view.emb (ix2 e k)) = _
  refine (congrFun (V_v6 m c) _).trans ?_
  show argWl m c (((cfg0.win 3).blk t).view.emb (ix2 e k)) = _
  refine congrArg (argWl m c) (funext fun a => Fin.ext ?_)
  match a with
  | ⟨0, _⟩ => show win0_3.index t (0 : Fin 2) * 768 + 1 * e.val = e.val; rw [e0]; omega
  | ⟨1, _⟩ => show win0_3.index t (1 : Fin 2) * 768 + 1 * k.val = k.val; rw [e1]; omega
theorem cblk_apply (c : Dev nD) (t : Fin cfg0.N) (e : Fin 768) :
    cblk m c t (ix2 0 e) = argBl m c (ix1 e) := by
  obtain ⟨-, -, -, -, -, -, -, -, e0, e1⟩ := idx_facts t
  show iblk m c 4 t (ix2 0 e) = _
  unfold iblk
  rw [View.read_apply]
  show V m c main_v7 (((cfg0.win 4).blk t).view.emb (ix2 0 e)) = _
  refine (congrFun (V_v7 m c) _).trans ?_
  refine shapeCast_apply _ _ _ _ ?_
  rw [Shape.rowMajor_val_one, Shape.rowMajor_val_two]
  show e.val = (win0_4.index t (0 : Fin 2) * 1 + 1 * 0) * 768 + (win0_4.index t (1 : Fin 2) * 768 + 1 * e.val)
  rw [e0, e1]
  omega

end Cert.KernelIdeal.Blocks

end
-- ==== Proof.KInduct.lean ====
/-
  The online softmax across the grid: what the carried maximum, denominator and accumulator hold after every grid
  point, by induction on the point, and what the output block holds after a row block's last tile.

  Point t works on row block t / 33 and vocabulary tile t % 33. For every row r of the block, after the point the three
  carried values satisfy `SoftmaxFold.Inv` at n = min ((t % 33 + 1) * 1536) 50257 columns of the row's scores: a first
  tile (t % 33 = 0) starts from the reset values, a later one from what the point before left (same row block, the
  tile before). After the last tile (t % 33 = 32) all 50257 columns are in, the quotient accumulator / denominator is
  the softmax-weighted average of each embedding column (`Inv.div_eq`), and the epilogue's product with the linear
  layer plus its bias is `Spec.out` of the row.
-/
import proofs.«410612_j10015863734716_3_alg».proof.Proof.KPieces
import proofs.«410612_j10015863734716_3_alg».proof.Proof.KPayDot
import proofs.«410612_j10015863734716_3_alg».proof.Proof.KPayRow
import proofs.«410612_j10015863734716_3_alg».proof.Proof.KBlocks
import proofs.«410612_j10015863734716_3_alg».proof.Proof.Spec

noncomputable section

open scoped BigOperators

namespace Cert.KernelIdeal.Induct

open Cert.KernelIdeal Cert.KernelIdeal.Gen Idealize.ShloMosaic Idealize.ShloMosaic.TcCoe Idealize.ShloMosaic.ValueIdx Idealize.SL.Sem
open Cert.KernelIdeal.Blocks

variable (m : (ℓ : Loc nD τ sig) → Buf (Elt Ideal) ℓ)

/-- The specification's result with the two leading axes flattened: entry (R, e) of [4096, 768] is `Spec.out e` of row
    (R / 2048, R % 2048). -/
def G2 (X : S2x2048x768.Idx → ℝ) (Wv : S50257x768.Idx → ℝ) (bv : S50257.Idx → ℝ) (Wl : S768x768.Idx → ℝ) (bl : S768.Idx → ℝ) :
    S4096x768.Idx → EReal :=
  fun j => ((Cert.Spec.out
    (fun k => X (ix3 (⟨(j 0).val / 2048, by have := idx2_lt0 j; omega⟩ : Fin 2) (⟨(j 0).val % 2048, Nat.mod_lt _ (by decide)⟩ : Fin 2048) k))
    (fun v k => Wv (ix2 v k)) (fun v => bv (ix1 v)) (fun e d => Wl (ix2 e d)) (fun e => bl (ix1 e)) (j 1) : ℝ) : EReal)

section
variable (c : Dev nD)

/-- The carried accumulator, maximum and denominator, and the output block, after point n, at their literal shapes. -/
abbrev accAt (n : ℕ) (hn : n < cfg0.N) : S1024x768.Idx → EReal := (outsAt0 m c n hn).2.1
abbrev mAt (n : ℕ) (hn : n < cfg0.N) : S1024x1.Idx → EReal := (outsAt0 m c n hn).2.2.1
abbrev lAt (n : ℕ) (hn : n < cfg0.N) : S1024x1.Idx → EReal := (outsAt0 m c n hn).2.2.2
abbrev outAt (n : ℕ) (hn : n < cfg0.N) : S1024x768.Idx → EReal := (outsAt0 m c n hn).1

/-- One tile's update of the maximum, the denominator and the accumulator. -/
abbrev updM (i : grid0.Coords) (x0 : S1024x768.Idx → EReal) (x1 : S1536x768.Idx → EReal) (x2 : S1x1536.Idx → EReal)
    (mp : S1024x1.Idx → EReal) : S1024x1.Idx → EReal :=
  k0_pay3 (F := Ideal) (k0_pay10 (F := Ideal) i x0 x1 x2 mp)
abbrev updL (i : grid0.Coords) (x0 : S1024x768.Idx → EReal) (x1 : S1536x768.Idx → EReal) (x2 : S1x1536.Idx → EReal)
    (mp lp : S1024x1.Idx → EReal) : S1024x1.Idx → EReal :=
  k0_pay1 (F := Ideal) (k0_pay13 (F := Ideal) i x0 x1 x2 mp lp)
abbrev updA (i : grid0.Coords) (x0 : S1024x768.Idx → EReal) (x1 : S1536x768.Idx → EReal) (x2 : S1x1536.Idx → EReal)
    (mp : S1024x1.Idx → EReal) (ap : S1024x768.Idx → EReal) : S1024x768.Idx → EReal :=
  k0_pay2 (F := Ideal) (k0_pay8 (F := Ideal) x1) (k0_pay11 (F := Ideal) i x0 x1 x2 mp) (k0_pay12 (F := Ideal) i x0 x1 x2 mp) ap

/-! ### What each point leaves, by its case -/

theorem accAt_A (t : Fin cfg0.N) (h0 : t.val % 33 = 0) (h1 : ¬t.val % 33 = 32) :
    accAt m c t.val t.isLt = updA (grid0.coords t) (xblk m c t) (wblk m c t) (bblk m c t) (k0_pay5 (F := Ideal)) (k0_pay7 (F := Ideal)) := by
  show (outsAt0 m c t.val t.isLt).2.1 = _
  rw [outsAt0_A m c t h0 h1]
  dsimp only
  exact Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)

theorem mAt_A (t : Fin cfg0.N) (h0 : t.val % 33 = 0) (h1 : ¬t.val % 33 = 32) :
    mAt m c t.val t.isLt = updM (grid0.coords t) (xblk m c t) (wblk m c t) (bblk m c t) (k0_pay5 (F := Ideal)) := by
  show (outsAt0 m c t.val t.isLt).2.2.1 = _
  rw [outsAt0_A m c t h0 h1]
  dsimp only
  exact Pieces.sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)

theorem lAt_A (t : Fin cfg0.N) (h0 : t.val % 33 = 0) (h1 : ¬t.val % 33 = 32) :
    lAt m c t.val t.isLt = updL (grid0.coords t) (xblk m c t) (wblk m c t) (bblk m c t) (k0_pay5 (F := Ideal)) (k0_pay6 (F := Ideal)) := by
  show (outsAt0 m c t.val t.isLt).2.2.2 = _
  rw [outsAt0_A m c t h0 h1]
  dsimp only
  exact Pieces.sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)

theorem accAt_B (t : Fin cfg0.N) (h0 : ¬t.val % 33 = 0) (h1 : ¬t.val % 33 = 32) :
    accAt m c t.val t.isLt = updA (grid0.coords t) (xblk m c t) (wblk m c t) (bblk m c t) (mAt m c (t.val - 1) (Nat.lt_of_le_of_lt (Nat.sub_le _ _) t.isLt)) (accAt m c (t.val - 1) (Nat.lt_of_le_of_lt (Nat.sub_le _ _) t.isLt)) := by
  show (outsAt0 m c t.val t.isLt).2.1 = _
  rw [outsAt0_B m c t h0 h1]
  dsimp only
  exact Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem mAt_B (t : Fin cfg0.N) (h0 : ¬t.val % 33 = 0) (h1 : ¬t.val % 33 = 32) :
    mAt m c t.val t.isLt = updM (grid0.coords t) (xblk m c t) (wblk m c t) (bblk m c t) (mAt m c (t.val - 1) (Nat.lt_of_le_of_lt (Nat.sub_le _ _) t.isLt)) := by
  show (outsAt0 m c t.val t.isLt).2.2.1 = _
  rw [outsAt0_B m c t h0 h1]
  dsimp only
  exact Pieces.sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem lAt_B (t : Fin cfg0.N) (h0 : ¬t.val % 33 = 0) (h1 : ¬t.val % 33 = 32) :
    lAt m c t.val t.isLt = updL (grid0.coords t) (xblk m c t) (wblk m c t) (bblk m c t) (mAt m c (t.val - 1) (Nat.lt_of_le_of_lt (Nat.sub_le _ _) t.isLt)) (lAt m c (t.val - 1) (Nat.lt_of_le_of_lt (Nat.sub_le _ _) t.isLt)) := by
  show (outsAt0 m c t.val t.isLt).2.2.2 = _
  rw [outsAt0_B m c t h0 h1]
  dsimp only
  exact Pieces.sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem accAt_C (t : Fin cfg0.N) (h0 : ¬t.val % 33 = 0) (h1 : t.val % 33 = 32) :
    accAt m c t.val t.isLt = updA (grid0.coords t) (xblk m c t) (wblk m c t) (bblk m c t) (mAt m c (t.val - 1) (Nat.lt_of_le_of_lt (Nat.sub_le _ _) t.isLt)) (accAt m c (t.val - 1) (Nat.lt_of_le_of_lt (Nat.sub_le _ _) t.isLt)) := by
  show (outsAt0 m c t.val t.isLt).2.1 = _
  rw [outsAt0_C m c t h0 h1]
  dsimp only
  exact Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem mAt_C (t : Fin cfg0.N) (h0 : ¬t.val % 33 = 0) (h1 : t.val % 33 = 32) :
    mAt m c t.val t.isLt = updM (grid0.coords t) (xblk m c t) (wblk m c t) (bblk m c t) (mAt m c (t.val - 1) (Nat.lt_of_le_of_lt (Nat.sub_le _ _) t.isLt)) := by
  show (outsAt0 m c t.val t.isLt).2.2.1 = _
  rw [outsAt0_C m c t h0 h1]
  dsimp only
  exact Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem lAt_C (t : Fin cfg0.N) (h0 : ¬t.val % 33 = 0) (h1 : t.val % 33 = 32) :
    lAt m c t.val t.isLt = updL (grid0.coords t) (xblk m c t) (wblk m c t) (bblk m c t) (mAt m c (t.val - 1) (Nat.lt_of_le_of_lt (Nat.sub_le _ _) t.isLt)) (lAt m c (t.val - 1) (Nat.lt_of_le_of_lt (Nat.sub_le _ _) t.isLt)) := by
  show (outsAt0 m c t.val t.isLt).2.2.2 = _
  rw [outsAt0_C m c t h0 h1]
  dsimp only
  exact Pieces.sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem outAt_C (t : Fin cfg0.N) (h0 : ¬t.val % 33 = 0) (h1 : t.val % 33 = 32) :
    outAt m c t.val t.isLt = k0_pay4 (F := Ideal) (updA (grid0.coords t) (xblk m c t) (wblk m c t) (bblk m c t) (mAt m c (t.val - 1) (Nat.lt_of_le_of_lt (Nat.sub_le _ _) t.isLt)) (accAt m c (t.val - 1) (Nat.lt_of_le_of_lt (Nat.sub_le _ _) t.isLt))) (updL (grid0.coords t) (xblk m c t) (wblk m c t) (bblk m c t) (mAt m c (t.val - 1) (Nat.lt_of_le_of_lt (Nat.sub_le _ _) t.isLt)) (lAt m c (t.val - 1) (Nat.lt_of_le_of_lt (Nat.sub_le _ _) t.isLt))) (lblk m c t) (cblk m c t) := by
  show (outsAt0 m c t.val t.isLt).1 = _
  rw [outsAt0_C m c t h0 h1]
  dsimp only
  exact Pieces.oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end

section
variable (c : Dev nD)
variable (X : S2x2048x768.Idx → ℝ) (Wv : S50257x768.Idx → ℝ) (bv : S50257.Idx → ℝ) (Wl : S768x768.Idx → ℝ) (bl : S768.Idx → ℝ)

/-- Flat row R of the input, as 768 reals. -/
def xrow (R : Fin 4096) : Fin 768 → ℝ :=
  fun k => X (ix3 (⟨R.val / 2048, by have := R.isLt; omega⟩ : Fin 2) (⟨R.val % 2048, Nat.mod_lt _ (by decide)⟩ : Fin 2048) k)

/-- Row R's scores against the vocabulary, and the embedding's columns, as functions of the vocabulary row's number. -/
def lgOf (R : Fin 4096) : ℕ → ℝ := Cert.Spec.logit (xrow X R) (fun v k => Wv (ix2 v k)) (fun v => bv (ix1 v))
def wcOf : Fin 768 → ℕ → ℝ := fun d => Cert.Spec.wcol (fun v k => Wv (ix2 v k)) d

/-- The update of one row by one tile keeps the online-softmax invariant: from the reset values at the first tile, or
    from the invariant at the tile's first column. `tv` is the tile's number. -/
theorem tile_step (i : grid0.Coords) (tv : ℕ) (hi : (i 1).val = tv) (x0 : S1024x768.Idx → EReal) (x1 : S1536x768.Idx → EReal)
    (x2 : S1x1536.Idx → EReal) (mp lp : S1024x1.Idx → EReal) (ap : S1024x768.Idx → EReal) (r : Fin 1024)
    (x : ℕ → ℝ) (w : Fin 768 → ℕ → ℝ)
    (hz : ∀ cc : Fin 1536, k0_pay9 (F := Ideal) i x0 x1 x2 (ix2 r cc)
      = if tv * 1536 + cc.val < 50257 then ((x (tv * 1536 + cc.val) : ℝ) : EReal) else ⊥)
    (hw : ∀ (d : Fin 768) (cc : Fin 1536), x1 (ix2 cc d)
      = if tv * 1536 + cc.val < 50257 then ((w d (tv * 1536 + cc.val) : ℝ) : EReal) else 0)
    (h : (mp (ix2 r 0) = ⊥ ∧ lp (ix2 r 0) = 0 ∧ (∀ d, ap (ix2 r d) = 0) ∧ tv * 1536 = 0)
      ∨ (SoftmaxFold.Inv x w (tv * 1536) (mp (ix2 r 0)) (lp (ix2 r 0)) (fun d => ap (ix2 r d)) ∧ tv * 1536 ≤ 50257)) :
    SoftmaxFold.Inv x w (min (tv * 1536 + 1536) 50257) (updM i x0 x1 x2 mp (ix2 r 0)) (updL i x0 x1 x2 mp lp (ix2 r 0))
      (fun d => updA i x0 x1 x2 mp ap (ix2 r d)) := by
  have hstep := SoftmaxFold.Inv.step (T := 1536) x w 50257 (tv * 1536)
    (fun cc => k0_pay9 (F := Ideal) i x0 x1 x2 (ix2 r cc)) (fun d cc => x1 (ix2 cc d)) hz hw
    (mp (ix2 r 0)) (lp (ix2 r 0)) (fun d => ap (ix2 r d))
    (h.elim (fun h => Or.inl ⟨h.1, h.2.1, h.2.2.1, h.2.2.2, by decide, by decide⟩) Or.inr)
  have em : updM i x0 x1 x2 mp (ix2 r 0)
      = max (mp (ix2 r 0)) ((Finset.univ : Finset (Fin 1536)).fold max ⊥ (fun cc => k0_pay9 (F := Ideal) i x0 x1 x2 (ix2 r cc))) := by
    show k0_pay3 (F := Ideal) _ _ = _
    rw [Pay.pay3_eq, Pay.pay10_apply]
  have el : updL i x0 x1 x2 mp lp (ix2 r 0)
      = Ideal.exp (mp (ix2 r 0) - max (mp (ix2 r 0)) ((Finset.univ : Finset (Fin 1536)).fold max ⊥ (fun cc => k0_pay9 (F := Ideal) i x0 x1 x2 (ix2 r cc)))) * lp (ix2 r 0)
        + ∑ cc : Fin 1536, Ideal.exp (k0_pay9 (F := Ideal) i x0 x1 x2 (ix2 r cc) - max (mp (ix2 r 0)) ((Finset.univ : Finset (Fin 1536)).fold max ⊥ (fun cc => k0_pay9 (F := Ideal) i x0 x1 x2 (ix2 r cc)))) := by
    show k0_pay1 (F := Ideal) _ _ = _
    rw [Pay.pay1_eq, Pay.pay13_apply, Pay.pay11_apply, Pay.pay10_apply]
    refine congrArg (_ + ·) (Finset.sum_congr rfl fun cc _ => ?_)
    rw [Pay.pay12_apply, Pay.pay10_apply]
  have ea : ∀ d : Fin 768, updA i x0 x1 x2 mp ap (ix2 r d)
      = Ideal.exp (mp (ix2 r 0) - max (mp (ix2 r 0)) ((Finset.univ : Finset (Fin 1536)).fold max ⊥ (fun cc => k0_pay9 (F := Ideal) i x0 x1 x2 (ix2 r cc)))) * ap (ix2 r d)
        + ∑ cc : Fin 1536, Ideal.exp (k0_pay9 (F := Ideal) i x0 x1 x2 (ix2 r cc) - max (mp (ix2 r 0)) ((Finset.univ : Finset (Fin 1536)).fold max ⊥ (fun cc => k0_pay9 (F := Ideal) i x0 x1 x2 (ix2 r cc)))) * x1 (ix2 cc d) := by
    intro d
    show k0_pay2 (F := Ideal) _ _ _ _ _ = _
    rw [Pay.pay2_apply, Pay.pay11_apply, Pay.pay10_apply, Pay.pay8_eq]
    refine congrArg (_ + ·) (Finset.sum_congr rfl fun cc _ => ?_)
    rw [Pay.pay12_apply, Pay.pay10_apply]
  rw [em, el, funext ea]
  exact hstep

variable (hX : argX m c = fun i => ((X i : ℝ) : EReal)) (hWv : argWv m c = fun i => ((Wv i : ℝ) : EReal))
  (hbv : argBv m c = fun i => ((bv i : ℝ) : EReal)) (hWl : argWl m c = fun i => ((Wl i : ℝ) : EReal))
  (hbl : argBl m c = fun i => ((bl i : ℝ) : EReal))

include hX hWv hbv in
/-- The tile's masked scores of row r are the row's real scores at the tile's columns, and -∞ past the vocabulary. -/
theorem scores_eq (t : Fin cfg0.N) (r : Fin 1024) (R : Fin 4096) (hR : R.val = t.val / 33 * 1024 + r.val) (cc : Fin 1536) :
    k0_pay9 (F := Ideal) (grid0.coords t) (xblk m c t) (wblk m c t) (bblk m c t) (ix2 r cc)
      = if t.val % 33 * 1536 + cc.val < 50257 then ((lgOf X Wv bv R (t.val % 33 * 1536 + cc.val) : ℝ) : EReal) else ⊥ := by
  rw [Pay.pay9_apply, coords1]
  by_cases hv : t.val % 33 * 1536 + cc.val < 50257
  · rw [if_pos hv, if_pos hv]
    have hbs : (⟨R.val / 2048, by have := R.isLt; omega⟩ : Fin 2).val * 2048 + (⟨R.val % 2048, Nat.mod_lt _ (by decide)⟩ : Fin 2048).val
        = t.val / 33 * 1024 + r.val := by rw [← hR]; show R.val / 2048 * 2048 + R.val % 2048 = R.val; omega
    have e1 : ∀ k : Fin 768, xblk m c t (ix2 r k) = ((xrow X R k : ℝ) : EReal) := fun k =>
      (xblk_apply m c t r k _ _ hbs).trans (congrFun hX _)
    have e2 : ∀ k : Fin 768, wblk m c t (ix2 cc k) = ((Wv (ix2 ⟨t.val % 33 * 1536 + cc.val, hv⟩ k) : ℝ) : EReal) := fun k => by
      rw [wblk_apply, dif_pos hv]; exact congrFun hWv _
    have e3 : bblk m c t (ix2 0 cc) = ((bv (ix1 ⟨t.val % 33 * 1536 + cc.val, hv⟩) : ℝ) : EReal) := by
      rw [bblk_apply, dif_pos hv]; exact congrFun hbv _
    rw [e3, Finset.sum_congr rfl fun k _ => by rw [e1 k, e2 k, ← EReal.coe_mul]]
    rw [← SoftmaxFold.coe_sum, ← EReal.coe_add]
    unfold lgOf Cert.Spec.logit
    rw [dif_pos hv]
  · rw [if_neg hv, if_neg hv]

include hWv in
/-- The tile's rows are the embedding's columns at the tile's vocabulary rows, and 0 in the padding. -/
theorem weights_eq (t : Fin cfg0.N) (d : Fin 768) (cc : Fin 1536) :
    wblk m c t (ix2 cc d)
      = if t.val % 33 * 1536 + cc.val < 50257 then ((wcOf Wv d (t.val % 33 * 1536 + cc.val) : ℝ) : EReal) else 0 := by
  rw [wblk_apply]
  by_cases hv : t.val % 33 * 1536 + cc.val < 50257
  · rw [dif_pos hv, if_pos hv]
    unfold wcOf Cert.Spec.wcol
    rw [dif_pos hv]
    exact congrFun hWv _
  · rw [dif_neg hv, if_neg hv]

/-- The invariant after point n: every row of the point's row block satisfies the online-softmax invariant at the
    columns seen so far. -/
def RowInv (n : ℕ) (hn : n < cfg0.N) : Prop :=
  ∀ (r : Fin 1024) (R : Fin 4096), R.val = n / 33 * 1024 + r.val →
    SoftmaxFold.Inv (lgOf X Wv bv R) (wcOf Wv) (min ((n % 33 + 1) * 1536) 50257)
      (mAt m c n hn (ix2 r 0)) (lAt m c n hn (ix2 r 0)) (fun d => accAt m c n hn (ix2 r d))

include hX hWv hbv in
/-- A first tile: from the reset values. -/
theorem rowInv_first (t : Fin cfg0.N) (h0 : t.val % 33 = 0) : RowInv m c X Wv bv t.val t.isLt := by
  intro r R hR
  have h1 : ¬t.val % 33 = 32 := by omega
  rw [mAt_A m c t h0 h1, lAt_A m c t h0 h1, accAt_A m c t h0 h1]
  have hs := tile_step (grid0.coords t) (t.val % 33) (coords1 t) (xblk m c t) (wblk m c t) (bblk m c t)
    (k0_pay5 (F := Ideal)) (k0_pay6 (F := Ideal)) (k0_pay7 (F := Ideal)) r (lgOf X Wv bv R) (wcOf Wv)
    (scores_eq m c X Wv bv hX hWv hbv t r R hR) (fun d cc => weights_eq m c Wv hWv t d cc)
    (Or.inl ⟨Pay.pay5_apply _, Pay.pay6_apply _, fun d => Pay.pay7_apply _, by rw [h0]⟩)
  have e : min (t.val % 33 * 1536 + 1536) 50257 = min ((t.val % 33 + 1) * 1536) 50257 := by
    rw [Nat.succ_mul]
  rw [← e]
  exact hs

include hX hWv hbv in
/-- A later tile: from the invariant after the point before (same row block, the tile before). -/
theorem rowInv_next (t : Fin cfg0.N) (h0 : ¬t.val % 33 = 0)
    (ih : RowInv m c X Wv bv (t.val - 1) (Nat.lt_of_le_of_lt (Nat.sub_le _ _) t.isLt)) : RowInv m c X Wv bv t.val t.isLt := by
  intro r R hR
  have hN : t.val < 132 := lt_of_lt_of_eq t.isLt (show cfg0.N = 132 from N_0)
  have hdiv : (t.val - 1) / 33 = t.val / 33 := by omega
  have hmod : (t.val - 1) % 33 + 1 = t.val % 33 := by omega
  have hprev := ih r R (by rw [hdiv]; exact hR)
  rw [hmod] at hprev
  have hle : t.val % 33 * 1536 ≤ 50257 := by have := Nat.mod_lt t.val (by decide : 33 > 0); omega
  rw [Nat.min_eq_left hle] at hprev
  have e : min (t.val % 33 * 1536 + 1536) 50257 = min ((t.val % 33 + 1) * 1536) 50257 := by
    rw [Nat.succ_mul]
  by_cases h1 : t.val % 33 = 32
  · rw [mAt_C m c t h0 h1, lAt_C m c t h0 h1, accAt_C m c t h0 h1, ← e]
    exact tile_step (grid0.coords t) (t.val % 33) (coords1 t) (xblk m c t) (wblk m c t) (bblk m c t) _ _ _ r
      (lgOf X Wv bv R) (wcOf Wv) (scores_eq m c X Wv bv hX hWv hbv t r R hR) (fun d cc => weights_eq m c Wv hWv t d cc)
      (Or.inr ⟨hprev, hle⟩)
  · rw [mAt_B m c t h0 h1, lAt_B m c t h0 h1, accAt_B m c t h0 h1, ← e]
    exact tile_step (grid0.coords t) (t.val % 33) (coords1 t) (xblk m c t) (wblk m c t) (bblk m c t) _ _ _ r
      (lgOf X Wv bv R) (wcOf Wv) (scores_eq m c X Wv bv hX hWv hbv t r R hR) (fun d cc => weights_eq m c Wv hWv t d cc)
      (Or.inr ⟨hprev, hle⟩)

include hX hWv hbv in
/-- The invariant holds after every point: by induction on the point. -/
theorem rowInv : ∀ (n : ℕ) (hn : n < cfg0.N), RowInv m c X Wv bv n hn
  | 0, hn => rowInv_first m c X Wv bv hX hWv hbv ⟨0, hn⟩ rfl
  | n + 1, hn => by
    by_cases h0 : (n + 1) % 33 = 0
    · exact rowInv_first m c X Wv bv hX hWv hbv ⟨n + 1, hn⟩ h0
    · exact rowInv_next m c X Wv bv hX hWv hbv ⟨n + 1, hn⟩ h0 (rowInv n (Nat.lt_of_succ_lt hn))

end

/-- After the last tile of a row block the output block's entry (r, e) is the specification's entry of the row. -/
theorem out_last (c : Dev nD) (X : S2x2048x768.Idx → ℝ) (Wv : S50257x768.Idx → ℝ) (bv : S50257.Idx → ℝ) (Wl : S768x768.Idx → ℝ)
    (bl : S768.Idx → ℝ) (hX : argX m c = fun i => ((X i : ℝ) : EReal)) (hWv : argWv m c = fun i => ((Wv i : ℝ) : EReal))
    (hbv : argBv m c = fun i => ((bv i : ℝ) : EReal)) (hWl : argWl m c = fun i => ((Wl i : ℝ) : EReal))
    (hbl : argBl m c = fun i => ((bl i : ℝ) : EReal))
    (t : Fin cfg0.N) (h32 : t.val % 33 = 32) (r : Fin 1024) (e : Fin 768) (R : Fin 4096) (hR : R.val = t.val / 33 * 1024 + r.val) :
    ((outsAt0 m c t.val t.isLt).1 : S1024x768.Idx → EReal) (ix2 r e) = G2 X Wv bv Wl bl (ix2 R e) := by
  have hN : t.val < 132 := lt_of_lt_of_eq t.isLt (show cfg0.N = 132 from N_0)
  have h0 : ¬t.val % 33 = 0 := by omega
  -- the three carried values after this point, in the forms the last case names them
  have hinv := rowInv m c X Wv bv hX hWv hbv t.val t.isLt r R hR
  rw [mAt_C m c t h0 h32, lAt_C m c t h0 h32, accAt_C m c t h0 h32] at hinv
  have hn : min ((t.val % 33 + 1) * 1536) 50257 = 50257 := by omega
  rw [hn] at hinv
  show outAt m c t.val t.isLt (ix2 r e) = _
  rw [outAt_C m c t h0 h32, Pay.pay4_apply]
  have hd : ∀ d : Fin 768, Ideal.div (updA (grid0.coords t) (xblk m c t) (wblk m c t) (bblk m c t) _ _ (ix2 r d))
      (updL (grid0.coords t) (xblk m c t) (wblk m c t) (bblk m c t) _ _ (ix2 r 0))
        = ((Cert.Spec.hid (xrow X R) (fun v k => Wv (ix2 v k)) (fun v => bv (ix1 v)) d : ℝ) : EReal) := fun d =>
    hinv.div_eq (by decide) d
  have e3 : ∀ d : Fin 768, lblk m c t (ix2 e d) = ((Wl (ix2 e d) : ℝ) : EReal) := fun d =>
    (lblk_apply m c t e d).trans (congrFun hWl _)
  have e4 : cblk m c t (ix2 0 e) = ((bl (ix1 e) : ℝ) : EReal) := (cblk_apply m c t e).trans (congrFun hbl _)
  rw [e4, Finset.sum_congr rfl fun d _ => by rw [hd d, e3 d, ← EReal.coe_mul]]
  rw [← SoftmaxFold.coe_sum, ← EReal.coe_add]
  rfl

end Cert.KernelIdeal.Induct

end
-- ==== Proof.KRun.lean ====
/-
  The idealized kernel's run, read: for real arguments the result array ends at the specification's array and the
  arguments end unchanged.

  The output window's block is written back only after a row block's last vocabulary tile (points t with
  t % 33 = 32); the block written back at such a point is rows (t / 33) * 1024 … + 1023 of the flattened result
  (`Induct.out_last`), and the four such points cover the [4096, 768] array, so after the region the array is the
  flattened specification `Induct.G2`; the one host operation after the region reshapes it to [2, 2048, 768], which
  reads (b, s, e) at flat row b * 2048 + s: the specification's array `Spec.G`.
-/
import proofs.«410612_j10015863734716_3_alg».proof.Proof.KInduct
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Blocks Cert.KernelIdeal.Induct

variable (m : (ℓ : Loc nD τ sig) → Buf (Elt Ideal) ℓ) (ρ : Dev nD → PrngReg)

/-- The flattened specification at flat row b * 2048 + s is the specification at (b, s). -/
theorem G2_flat (X : S2x2048x768.Idx → ℝ) (Wv : S50257x768.Idx → ℝ) (bv : S50257.Idx → ℝ)
    (Wl : S768x768.Idx → ℝ) (bl : S768.Idx → ℝ) (b : Fin 2) (s : Fin 2048) (e : Fin 768) (R : Fin 4096)
    (hR : R.val = b.val * 2048 + s.val) :
    G2 X Wv bv Wl bl (ix2 R e) = Cert.Spec.G X Wv bv Wl bl (ix3 b s e) := by
  have hs := s.isLt
  have e1 : ∀ (p1 : R.val / 2048 < 2), (⟨R.val / 2048, p1⟩ : Fin 2) = b :=
    fun _ => Fin.ext (by show R.val / 2048 = b.val; omega)
  have e2 : ∀ (p2 : R.val % 2048 < 2048), (⟨R.val % 2048, p2⟩ : Fin 2048) = s :=
    fun _ => Fin.ext (by show R.val % 2048 = s.val; omega)
  unfold G2 Cert.Spec.G
  show ((Cert.Spec.out (fun k => X (ix3 (⟨R.val / 2048, _⟩ : Fin 2) (⟨R.val % 2048, _⟩ : Fin 2048) k))
      (fun v k => Wv (ix2 v k)) (fun v => bv (ix1 v)) (fun e d => Wl (ix2 e d)) (fun e => bl (ix1 e)) e : ℝ) : EReal)
    = ((Cert.Spec.out (fun k => X (ix3 b s k))
      (fun v k => Wv (ix2 v k)) (fun v => bv (ix1 v)) (fun e d => Wl (ix2 e d)) (fun e => bl (ix1 e)) e : ℝ) : EReal)
  rw [e1, e2]

/-- The reshape of a [4096, 768] array to [2, 2048, 768] reads (b, s, e) at flat row b * 2048 + s. -/
theorem reshape_apply {α : Type} (x : S4096x768.Idx → α) (h : S4096x768.ShapeCasts S2x2048x768)
    (b : Fin 2) (s : Fin 2048) (e : Fin 768) (R : Fin 4096) (hR : R.val = b.val * 2048 + s.val) :
    shapeCast S2x2048x768 x h (ix3 b s e) = x (ix2 R e) :=
  shapeCast_apply x h _ _ (by
    rw [Shape.rowMajor_val_two, Shape.rowMajor_val_three]
    show R.val * 768 + e.val = (b.val * 2048 + s.val) * 768 + e.val
    rw [hR])

/-- Window 5's block index at point t: row block t / 33, column block 0. -/
theorem idx5 : ∀ t : Fin cfg0.N, win0_5.index t (0 : Fin 2) = t.val / 33 ∧ win0_5.index t (1 : Fin 2) = 0 :=
  (by decide +kernel : ∀ t : Fin grid0.N, _)

/-- A point's number is below 132. -/
theorem t_lt (t : Fin cfg0.N) : t.val < 132 := by
  have h : cfg0.N = 132 := N_0
  have := t.isLt
  omega

/-- The flat row under entry r of point t's output block. -/
abbrev flatRow (t : Fin cfg0.N) (r : Fin 1024) : Fin 4096 :=
  ⟨t.val / 33 * 1024 + r.val, by have := t_lt t; have := r.isLt; omega⟩

/-- Entry (r, e) of point t's output block lies at (flat row, e) of the [4096, 768] array. -/
theorem emb5 (t : Fin cfg0.N) (r : Fin 1024) (e : Fin 768) :
    ((cfg0.win 5).blk t).view.emb (ix2 r e : S1024x768.Idx) = (ix2 (flatRow t r) e : S4096x768.Idx) := by
  obtain ⟨e0, e1⟩ := idx5 t
  funext a; apply Fin.ext
  match a with
  | ⟨0, _⟩ => show win0_5.index t (0 : Fin 2) * 1024 + 1 * r.val = t.val / 33 * 1024 + r.val; rw [e0]; omega
  | ⟨1, _⟩ => show win0_5.index t (1 : Fin 2) * 768 + 1 * e.val = e.val; rw [e1]; omega

/-- What a last tile's point writes back is its block of the flattened specification: entry (r, e) of the block lies at
    flat row (t / 33) * 1024 + r, where the output block holds the specification's entry. -/
theorem flushed_eq (c : Dev nD) (X : S2x2048x768.Idx → ℝ) (Wv : S50257x768.Idx → ℝ) (bv : S50257.Idx → ℝ)
    (Wl : S768x768.Idx → ℝ) (bl : S768.Idx → ℝ)
    (hX : argX m c = fun i => ((X i : ℝ) : EReal)) (hWv : argWv m c = fun i => ((Wv i : ℝ) : EReal))
    (hbv : argBv m c = fun i => ((bv i : ℝ) : EReal)) (hWl : argWl m c = fun i => ((Wl i : ℝ) : EReal))
    (hbl : argBl m c = fun i => ((bl i : ℝ) : EReal))
    (t : Fin cfg0.N) (hf : (cfg0.win 5).flush t = true) :
    (dats m 0 c).flushed 5 t = ((cfg0.win 5).blk t).view.read (Elt Ideal) (G2 X Wv bv Wl bl) := by
  have h32 : t.val % 33 = 32 := (flush0_5 t).mp hf
  show (cfg0.win 5).cut (grid0.coords t) ((dats m 0 c).after 5 t) = _
  rw [after0_5]
  have key : ∀ (r : Fin 1024) (e : Fin 768),
      ((outsAt0 m c t.val t.isLt).1 : S1024x768.Idx → EReal) (ix2 r e)
        = G2 X Wv bv Wl bl (((cfg0.win 5).blk t).view.emb (ix2 r e : S1024x768.Idx)) := fun r e => by
    rw [emb5]
    exact out_last m c X Wv bv Wl bl hX hWv hbv hWl hbl t h32 r e (flatRow t r) rfl
  funext y
  show ((outsAt0 m c t.val t.isLt).1 : S1024x768.Idx → EReal) y
    = G2 X Wv bv Wl bl (((cfg0.win 5).blk t).view.emb (y : S1024x768.Idx))
  have hy : (y : S1024x768.Idx) = ix2 (y 0) (y 1) := eq_ix2 (y : S1024x768.Idx)
  rw [hy]
  exact key _ _

/-- Every index of the [4096, 768] array lies in the block of the last tile's point of its row block. -/
theorem cover5 (i : S4096x768.Idx) :
    ∃ t : Fin cfg0.N, (cfg0.win 5).flush t = true ∧ i ∈ ((cfg0.win 5).blk t).view.set := by
  have h0 : (i 0).val < 4096 := (i 0).isLt
  have h1 : (i 1).val < 768 := (i 1).isLt
  have hN : cfg0.N = 132 := N_0
  let t : Fin cfg0.N := ⟨(i 0).val / 1024 * 33 + 32, by omega⟩
  have ht : t.val = (i 0).val / 1024 * 33 + 32 := rfl
  obtain ⟨e0, e1⟩ := idx5 t
  refine ⟨t, (flush0_5 t).mpr (by omega), ?_⟩
  show i ∈ ((View.whole main_v8).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 768 ≤ (i 1).val ∧ (i 1).val < win0_5.index t (1 : Fin 2) * 768 + 768
    rw [e1]; omega

/-- After the region the [4096, 768] result array is the flattened specification. -/
theorem final5 (c : Dev nD) (X : S2x2048x768.Idx → ℝ) (Wv : S50257x768.Idx → ℝ) (bv : S50257.Idx → ℝ)
    (Wl : S768x768.Idx → ℝ) (bl : S768.Idx → ℝ)
    (hX : argX m c = fun i => ((X i : ℝ) : EReal)) (hWv : argWv m c = fun i => ((Wv i : ℝ) : EReal))
    (hbv : argBv m c = fun i => ((bv i : ℝ) : EReal)) (hWl : argWl m c = fun i => ((Wl i : ℝ) : EReal))
    (hbl : argBl m c = fun i => ((bl i : ℝ) : EReal)) :
    (dats m 0 c).arrAt 5 cfg0.N = G2 X Wv bv Wl bl :=
  (dats m 0 c).arrAt_eq_of_cover 5 (G2 X Wv bv Wl bl) (flushed_eq m c X Wv bv Wl bl hX hWv hbv hWl hbl) cover5

/-- After the host's reshape the [2, 2048, 768] result array is the specification's array: the reshape reads (b, s, e)
    at flat row b * 2048 + s of the flattened specification. -/
theorem tail_eq (c : Dev nD) (X : S2x2048x768.Idx → ℝ) (Wv : S50257x768.Idx → ℝ) (bv : S50257.Idx → ℝ)
    (Wl : S768x768.Idx → ℝ) (bl : S768.Idx → ℝ)
    (hX : argX m c = fun i => ((X i : ℝ) : EReal)) (hWv : argWv m c = fun i => ((Wv i : ℝ) : EReal))
    (hbv : argBv m c = fun i => ((bv i : ℝ) : EReal)) (hWl : argWl m c = fun i => ((Wl i : ℝ) : EReal))
    (hbl : argBl m c = fun i => ((bl i : ℝ) : EReal)) :
    Pipeline.afterTail₀ cfgs (dats m) 0 (V0 m) [hostOps1] c main_v9 = Cert.Spec.G X Wv bv Wl bl := by
  unfold Pipeline.afterTail₀
  show StableHlo.after hostOps1 _ (Proc.devRef .tc main_v9) = _
  after_results
  have hA : Pipeline.withArrays (cfgs 0).spec c (V0 m c) (fun w => (dats m 0 c).arrAt w (cfgs 0).N)
      (Proc.devRef .tc main_v8) = G2 X Wv bv Wl bl :=
    (Pipeline.withArrays_arr spec0 launch0.win.arr_inj c _ _ 5).trans (final5 m c X Wv bv Wl bl hX hWv hbv hWl hbl)
  rw [hA]
  have key : ∀ (b : Fin 2) (s : Fin 2048) (e : Fin 768),
      shapeCast S2x2048x768 (G2 X Wv bv Wl bl) shapeCasts_S4096x768_S2x2048x768 (ix3 b s e)
        = Cert.Spec.G X Wv bv Wl bl (ix3 b s e) := fun b s e =>
    (reshape_apply (G2 X Wv bv Wl bl) _ b s e ⟨b.val * 2048 + s.val, by have := b.isLt; have := s.isLt; omega⟩ rfl).trans
      (G2_flat X Wv bv Wl bl b s e _ rfl)
  funext i
  have hi : (i : S2x2048x768.Idx) = ix3 (i 0) (i 1) (i 2) := eq_ix3 (i : S2x2048x768.Idx)
  show shapeCast S2x2048x768 (G2 X Wv bv Wl bl) shapeCasts_S4096x768_S2x2048x768 (i : S2x2048x768.Idx)
    = Cert.Spec.G X Wv bv Wl bl (i : S2x2048x768.Idx)
  rw [hi]
  exact key _ _ _

/-- Every weakly fair execution of the idealized kernel's @main from real arguments terminates with the result array at
    the specification's array and the arguments unchanged. -/
theorem run (X : Dev nD → S2x2048x768.Idx → ℝ) (Wv : Dev nD → S50257x768.Idx → ℝ) (bv : Dev nD → S50257.Idx → ℝ)
    (Wl : Dev nD → S768x768.Idx → ℝ) (bl : Dev nD → S768.Idx → ℝ)
    (hX : ∀ c, argX m c = fun i => ((X c i : ℝ) : EReal)) (hWv : ∀ c, argWv m c = fun i => ((Wv c i : ℝ) : EReal))
    (hbv : ∀ c, argBv m c = fun i => ((bv c i : ℝ) : EReal)) (hWl : ∀ c, argWl m c = fun i => ((Wl c i : ℝ) : EReal))
    (hbl : ∀ c, argBl m c = fun i => ((bl c i : ℝ) : EReal)) :
    θ_run (defs (F := Ideal)) (onTc (τ := τ) (main (F := Ideal))) ⟨m, fun _ => 0, ρ⟩ (fun r => ∀ c : Dev nD,
      r.2.mem ((c.tc : Thread nD τ).loc main_v9) = Cert.Spec.G (X c) (Wv c) (bv c) (Wl c) (bl c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c =>
    ⟨((h c).2 main_v9 (Pipeline.mem_restRefs_of main_v9 (by decide) (by decide))).trans
        (tail_eq m c (X c) (Wv c) (bv c) (Wl c) (bl c) (hX c) (hWv c) (hbv c) (hWl c) (hbl c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.lean ====
/-
  The certificate: a fused "vocabulary attention" kernel against its jnp reference, over the extended reals.

  Reference: scores = x · Wvᵀ + bv over the 50257 vocabulary rows, a softmax over them, the softmax-weighted average of
  the embedding's columns, a linear layer. Kernel: the same row by row with an ONLINE softmax over 33 tiles of 1536
  vocabulary rows (the vocabulary padded with zero rows to 50688, the padded columns masked out of the softmax), the
  running maximum, denominator and accumulator carried in scratch across the tiles, the quotient and the linear layer in
  an epilogue after the last tile.

  The kernel's mask value is a finite stand-in for -∞; the idealization names it -∞ (`preserves`: the ledger's one entry),
  so that a masked column contributes exp (-∞) = 0 to the denominator exactly. Then both programs compute, at every
  entry, `Spec.G`: the online recurrence telescopes (exp (m - m') · exp (x - m) = exp (x - m')) to the two sums shifted by
  ANY real maximum, whose quotient is the softmax-weighted average (`SoftmaxFold`), and the reference's two-pass softmax
  is the same average. Both steps use that the arguments are finite (the precondition): the kernel's run is read for
  real arguments (`KernelIdeal.Run.run`), the reference's generated run through its stages (`ReferenceIdeal.Stages.ref_eq_G`).
-/
import proofs.«410612_j10015863734716_3_alg».proof.Defs
import proofs.«410612_j10015863734716_3_alg».proof.Proof.Gen.Kernel
import proofs.«410612_j10015863734716_3_alg».proof.Proof.Gen.Kernel.Frame
import proofs.«410612_j10015863734716_3_alg».proof.Proof.Gen.KernelIdeal
import proofs.«410612_j10015863734716_3_alg».proof.Proof.Gen.KernelIdeal.Frame
import proofs.«410612_j10015863734716_3_alg».proof.Proof.Gen.ReferenceIdeal
import proofs.«410612_j10015863734716_3_alg».proof.Proof.Gen.ReferenceIdeal.Run
import proofs.«410612_j10015863734716_3_alg».proof.Proof.Gen.ReferenceIdeal.Read
import proofs.«410612_j10015863734716_3_alg».proof.Proof.Gen.Pre_finite_inputs
import proofs.«410612_j10015863734716_3_alg».proof.Proof.Finite
import proofs.«410612_j10015863734716_3_alg».proof.Proof.RefStages
import proofs.«410612_j10015863734716_3_alg».proof.Proof.KRun
import Idealize.ShloMosaic.PureOps.IdealRules

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the mask value's name denotes -∞ by the certificate's table. -/
theorem preserves : Cert.preserves_Kernel_KernelIdeal :=
  IdealRules.named_const.statement Cert.KernelIdeal.κ "neg_big" .f32 0xCE6E6B28#32 ⊥ rfl

/-- Both idealized programs end at `Spec.G` of the (real) arguments. -/
theorem algebraic : Cert.algebraic_KernelIdeal_ReferenceIdeal := by
  intro m ρ m' ρ' hpre hagree
  have hreal := fun c => Cert.Finite.real_of_fn _ _ _ _ _ (hpre c)
  choose X hX using fun c => (hreal c).1
  choose Wv hWv using fun c => (hreal c).2.1
  choose bv hbv using fun c => (hreal c).2.2.1
  choose Wl hWl using fun c => (hreal c).2.2.2.1
  choose bl hbl using fun c => (hreal c).2.2.2.2
  refine ⟨fun c => Cert.Spec.G (X c) (Wv c) (bv c) (Wl c) (bl c),
    Cert.KernelIdeal.Run.run m ρ X Wv bv Wl bl hX hWv hbv hWl hbl, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v19_eq, hX c, hWv c, hbv c, hWl c, hbl c]
  exact Cert.ReferenceIdeal.Stages.ref_eq_G (X c) (Wv c) (bv c) (Wl c) (bl c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
